-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S4000x128 : Shape := ⟨2, ![4000, 128]⟩
abbrev S_ : Shape := ⟨0, ![]⟩
abbrev S1605632 : Shape := ⟨1, ![1605632]⟩
abbrev S1605632x1 : Shape := ⟨2, ![1605632, 1]⟩
abbrev S1605632x128 : Shape := ⟨2, ![1605632, 128]⟩
abbrev S8192 : Shape := ⟨1, ![8192]⟩
abbrev S8192x128 : Shape := ⟨2, ![8192, 128]⟩
abbrev S8192x1 : Shape := ⟨2, ![8192, 1]⟩

abbrev nBuf : Space → Nat
  | .hbm => 55
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S_, .i32⟩
  | .hbm, ⟨8, _⟩ => ⟨S_, .i32⟩
  | .hbm, ⟨9, _⟩ => ⟨S1605632, .i32⟩
  | .hbm, ⟨10, _⟩ => ⟨S_, .f32⟩
  | .hbm, ⟨11, _⟩ => ⟨S_, .f32⟩
  | .hbm, ⟨12, _⟩ => ⟨S1605632, .f32⟩
  | .hbm, ⟨13, _⟩ => ⟨S_, .i32⟩
  | .hbm, ⟨14, _⟩ => ⟨S_, .i32⟩
  | .hbm, ⟨15, _⟩ => ⟨S1605632, .i32⟩
  | .hbm, ⟨16, _⟩ => ⟨S_, .i32⟩
  | .hbm, ⟨17, _⟩ => ⟨S1605632, .i32⟩
  | .hbm, ⟨18, _⟩ => ⟨S1605632, .i1⟩
  | .hbm, ⟨19, _⟩ => ⟨S_, .i32⟩
  | .hbm, ⟨20, _⟩ => ⟨S1605632, .i32⟩
  | .hbm, ⟨21, _⟩ => ⟨S1605632, .i32⟩
  | .hbm, ⟨22, _⟩ => ⟨S1605632, .i32⟩
  | .hbm, ⟨23, _⟩ => ⟨S1605632x1, .i32⟩
  | .hbm, ⟨24, _⟩ => ⟨S1605632x128, .f32⟩
  | .hbm, ⟨25, _⟩ => ⟨S1605632x128, .f32⟩
  | .hbm, ⟨26, _⟩ => ⟨S_, .f32⟩
  | .hbm, ⟨27, _⟩ => ⟨S100000x128, .f32⟩
  | .hbm, ⟨28, _⟩ => ⟨S1605632x1, .i32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S_, .i32⟩
  | .hbm, ⟨33, _⟩ => ⟨S1605632, .i32⟩
  | .hbm, ⟨34, _⟩ => ⟨S_, .f32⟩
  | .hbm, ⟨35, _⟩ => ⟨S_, .f32⟩
  | .hbm, ⟨36, _⟩ => ⟨S1605632, .f32⟩
  | .hbm, ⟨37, _⟩ => ⟨S_, .i32⟩
  | .hbm, ⟨38, _⟩ => ⟨S_, .i32⟩
  | .hbm, ⟨39, _⟩ => ⟨S1605632, .i32⟩
  | .hbm, ⟨40, _⟩ => ⟨S_, .i32⟩
  | .hbm, ⟨41, _⟩ => ⟨S1605632, .i32⟩
  | .hbm, ⟨42, _⟩ => ⟨S1605632, .i1⟩
  | .hbm, ⟨43, _⟩ => ⟨S_, .i32⟩
  | .hbm, ⟨44, _⟩ => ⟨S1605632, .i32⟩
  | .hbm, ⟨45, _⟩ => ⟨S1605632, .i32⟩
  | .hbm, ⟨46, _⟩ => ⟨S1605632, .i32⟩
  | .hbm, ⟨47, _⟩ => ⟨S1605632x1, .i32⟩
  | .hbm, ⟨48, _⟩ => ⟨S1605632x128, .f32⟩
  | .hbm, ⟨49, _⟩ => ⟨S1605632x128, .f32⟩
  | .hbm, ⟨50, _⟩ => ⟨S_, .f32⟩
  | .hbm, ⟨51, _⟩ => ⟨S100000x128, .f32⟩
  | .hbm, ⟨52, _⟩ => ⟨S1605632x1, .i32⟩
  | .hbm, ⟨53, _⟩ => ⟨S100000x128, .f32⟩
  | .hbm, ⟨54, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S8192, .f32⟩
  | .local _ .vmem, ⟨6, _⟩ => ⟨S8192, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S4000x128, .f32⟩
  | .local _ .vmem, ⟨15, _⟩ => ⟨S4000x128, .f32⟩
  | .local _ .vmem, ⟨16, _⟩ => ⟨S8192, .f32⟩
  | .local _ .vmem, ⟨17, _⟩ => ⟨S8192, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_call1_v0 : Ref sig .tc := ⟨.hbm, 11, rfl⟩
abbrev main_v2 : Ref sig .tc := ⟨.hbm, 12, rfl⟩
abbrev main_c_0 : Ref sig .tc := ⟨.hbm, 13, rfl⟩
abbrev main_call2_v0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_call3_v0 : Ref sig .tc := ⟨.hbm, 32, rfl⟩
abbrev main_v16 : Ref sig .tc := ⟨.hbm, 33, rfl⟩
abbrev main_cst_5 : Ref sig .tc := ⟨.hbm, 34, rfl⟩
abbrev main_call4_v0 : Ref sig .tc := ⟨.hbm, 35, rfl⟩
abbrev main_v17 : Ref sig .tc := ⟨.hbm, 36, rfl⟩
abbrev main_c_6 : Ref sig .tc := ⟨.hbm, 37, rfl⟩
abbrev main_call5_v0 : Ref sig .tc := ⟨.hbm, 38, rfl⟩
abbrev main_v18 : Ref sig .tc := ⟨.hbm, 39, rfl⟩
abbrev main_c_7 : Ref sig .tc := ⟨.hbm, 40, rfl⟩
abbrev main_v19 : Ref sig .tc := ⟨.hbm, 41, rfl⟩
abbrev main_v20 : Ref sig .tc := ⟨.hbm, 42, rfl⟩
abbrev main_c_8 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![196], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![196], ![false]⟩

def cc3_transform_0 (i : grid3.Coords) : Fin 1 → Nat :=
  let arg0 : BitVec 32 := BitVec.ofNat 32 (i 0).val
  let c0_i32 : BitVec 32 := 0#32
  ![arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  pads_S1600000_S1605632_056320 : S1600000.Pads (![0] : Fin 1 → Nat) ![5632] ![0] S1605632
  h_S_ : 0 < S_.numel
  bcast_S_S1605632 : S_.BroadcastsInDim S1605632 (![] : Fin 0 → Fin S1605632.rank)
  bcast_S1605632_S1605632x1_0 : S1605632.BroadcastsInDim S1605632x1 (![0] : Fin 1 → Fin S1605632x1.rank)
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S8192x1_S8192x128 : S8192x1.Broadcasts S8192x128
  bcast_S_S100000x128 : S_.BroadcastsInDim S100000x128 (![] : Fin 0 → Fin S100000x128.rank)
  shapeCasts_S4000x128_S4000x128 : S4000x128.ShapeCasts S4000x128
  dot_S4000x128_S128x128_S4000x128_1_0_0_1_n_n_wf : DotDims.WF S4000x128 S128x128 S4000x128 [1] [0] [0] [1] [] []
  gather_S100000x128_S1605632x1_S1605632x128_1_0_n_n_0_1_1128_wf : GatherDims.WF S100000x128 S1605632x1 S1605632x128 [1] [0] [] [0] [] 1 ![1, 128]
  scatter_S100000x128_S1605632x1_S1605632x128_1_0_0_1_wf : ScatterDims.WF S100000x128 S1605632x1 S1605632x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S1605632.size a
  hwx1_0 : ∀ i : grid1.Coords, EltTy.bits .f32 = 32 ∨ (Rect.block (s := S1605632) S8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S1605632x128.size a
  hwx1_1 : ∀ i : grid1.Coords, EltTy.bits .f32 = 32 ∨ (Rect.block (s := S1605632x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1605632x128.size a
  hwx1_2 : ∀ i : grid1.Coords, EltTy.bits .f32 = 32 ∨ (Rect.block (s := S1605632x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192.size a ≤ S1605632.size a
  hwx3_0 : ∀ i : grid3.Coords, EltTy.bits .f32 = 32 ∨ (Rect.block (s := S1605632) S8192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S1605632x128.size a
  hwx3_1 : ∀ i : grid3.Coords, EltTy.bits .f32 = 32 ∨ (Rect.block (s := S1605632x128) S8192x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S1605632x128.size a
  hwx3_2 : ∀ i : grid3.Coords, EltTy.bits .f32 = 32 ∨ (Rect.block (s := S1605632x128) S8192x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1605632x1_S1605632x128_1_0_n_n_0_1_1128 : GatherDims S100000x128 S1605632x1 S1605632x128 where
  offsetDims := [1]
  collapsedSliceDims := [0]
  operandBatchingDims := []
  startIndicesBatchingDims := []
  startIndexMap := [0]
  indexVectorDim := 1
  sliceSizes := ![1, 128]
  wf := gather_S100000x128_S1605632x1_S1605632x128_1_0_n_n_0_1_1128_wf
def scatter_S100000x128_S1605632x1_S1605632x128_1_0_0_1 : ScatterDims S100000x128 S1605632x1 S1605632x128 where
  updateWindowDims := [1]
  insertedWindowDims := [0]
  scatterDimsToOperandDims := [0]
  indexVectorDim := 1
  wf := scatter_S100000x128_S1605632x1_S1605632x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S8192x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S8192x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v29) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S4000x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The three array functions the kernel's five launches compute, written index by index over the extended reals.
  A graph convolution layer is: multiply the node features by a weight matrix, gather one row per edge, scale it by
  the edge's value, add the scaled rows into their destination nodes, take the positive part. Here are the dense
  product, the per-edge scaling (over the edge list padded to a whole number of blocks) and the positive part.
-/
import Idealize.ShloMosaic.PureOps.Ideal
import Idealize.ShloMosaic.Lib.ValueIdx

noncomputable section

open scoped BigOperators

namespace Cert.Spec

open Idealize.ShloMosaic Idealize.ShloMosaic.ValueIdx

/-- Node features: 100000 nodes, 128 features. -/
abbrev SNodes : Shape := ⟨2, ![100000, 128]⟩
/-- A weight matrix. -/
abbrev SWeight : Shape := ⟨2, ![128, 128]⟩
/-- The padded edge list: 196 blocks of 8192 edges. -/
abbrev SEdgesP : Shape := ⟨1, ![1605632]⟩
/-- One 128-feature row per padded edge. -/
abbrev SRowsP : Shape := ⟨2, ![1605632, 128]⟩

/-- The dense product: entry `(r, c)` is the sum over the 128 shared coordinates `k` of `a (r, k) · w (k, c)`. -/
def mm (a : FVec Ideal SNodes .f32) (w : FVec Ideal SWeight .f32) : FVec Ideal SNodes .f32 :=
  fun i => ∑ k : Fin 128, a (ix2 ⟨(i 0).val, idx2_lt0 i⟩ k) * w (ix2 k ⟨(i 1).val, idx2_lt1 i⟩)

/-- Row `e` of the gathered features times edge `e`'s value. -/
def scale (v : FVec Ideal SEdgesP .f32) (g : FVec Ideal SRowsP .f32) : FVec Ideal SRowsP .f32 :=
  fun i => g i * v (ix1 ⟨(i 0).val, idx2_lt0 i⟩)

/-- The positive part, entry by entry. -/
def relu (x : FVec Ideal SNodes .f32) : FVec Ideal SNodes .f32 := fun i => max (x i) 0

end Cert.Spec

end
-- ==== Proof.KernelSpec.lean ====
/-
  What the kernel's program computes between its launches, as functions of its arguments: the edge list's three arrays
  padded with 5632 trailing entries (index 0 for the two index arrays, value 0 for the edge values) up to 196 whole
  blocks of 8192; the column indices with negatives wrapped by the node count; the sparse product of one layer — gather
  the feature row each padded edge's column index names, scale it by the edge's padded value, add it into the row the
  edge's padded row index names, starting from zero —; and the two layers composed: dense product, sparse product,
  positive part, twice.
-/
import proofs.«135429_j5342939316652_1_alg».proof.KernelIdeal
import proofs.«135429_j5342939316652_1_alg».proof.Proof.Gen.KernelIdeal
import proofs.«135429_j5342939316652_1_alg».proof.Proof.Spec

noncomputable section

namespace Cert.KernelIdeal.KSpec

open Cert.KernelIdeal Cert.KernelIdeal.Facts₀ Idealize.ShloMosaic

/-- An index array of the 1600000 edges followed by 5632 zeros. -/
def padI (x : IVec S1600000 32) : IVec S1605632 32 :=
  pad S1605632 ![0] ![5632] ![0] x (constantI S_ 32 0#32) pads_S1600000_S1605632_056320 h_S_

/-- The edge values followed by 5632 zeros. -/
def padF (x : FVec Ideal S1600000 .f32) : FVec Ideal S1605632 .f32 :=
  pad S1605632 ![0] ![5632] ![0] x (constant (F := Ideal) S_ .f32 0x00000000#32) pads_S1600000_S1605632_056320 h_S_

/-- The padded column indices, a negative one wrapped by adding the node count, as the `[E, 1]` start indices of the gather. -/
def colIdx (cols : IVec S1600000 32) : IVec S1605632x1 32 :=
  broadcastInDim S1605632x1 ![0] bcast_S1605632_S1605632x1_0
    (select (cmpi .slt (padI cols) (broadcastInDim S1605632 ![] bcast_S_S1605632 (constantI S_ 32 0#32)))
      (addi (padI cols) (broadcastInDim S1605632 ![] bcast_S_S1605632 (constantI S_ 32 100000#32)))
      (padI cols))

/-- The padded row indices as the `[E, 1]` indices of the scatter. -/
def rowIdx (rows : IVec S1600000 32) : IVec S1605632x1 32 :=
  broadcastInDim S1605632x1 ![0] bcast_S1605632_S1605632x1_0 (padI rows)

/-- The all-zero node array the scatter-add starts from. -/
def zeros : FVec Ideal S100000x128 .f32 :=
  broadcastInDim S100000x128 ![] bcast_S_S100000x128 (constant (F := Ideal) S_ .f32 0x00000000#32)

/-- One layer's sparse product over the padded edge list. -/
def spmm (rows cols : IVec S1600000 32) (vals : FVec Ideal S1600000 .f32) (h : FVec Ideal S100000x128 .f32) :
    FVec Ideal S100000x128 .f32 :=
  Host.scatterAdd scatter_S100000x128_S1605632x1_S1605632x128_1_0_0_1 zeros (rowIdx rows)
    (Cert.Spec.scale (padF vals) (Host.gather gather_S100000x128_S1605632x1_S1605632x128_1_0_n_n_0_1_1128 h (colIdx cols)))

/-- The whole kernel: two layers of dense product, sparse product and positive part. -/
def out (x : FVec Ideal S100000x128 .f32) (rows cols : IVec S1600000 32) (vals : FVec Ideal S1600000 .f32)
    (w1 w2 : FVec Ideal S128x128 .f32) : FVec Ideal S100000x128 .f32 :=
  Cert.Spec.relu (spmm rows cols vals (Cert.Spec.mm (Cert.Spec.relu (spmm rows cols vals (Cert.Spec.mm x w1))) w2))

end Cert.KernelIdeal.KSpec

end
-- ==== Proof.Region0.lean ====
/-
  The first launch: 25 blocks of 4000 node rows, each multiplied by the whole first weight matrix. Block `t` of the
  result is rows `4000 t … 4000 t + 3999` of the product of the whole feature array with the weights, because entry
  `(r, c)` of a product needs only row `r` of the left factor; the 25 blocks tile the 100000 rows, so the array the
  launch leaves is the whole product.
-/
import proofs.«135429_j5342939316652_1_alg».proof.Proof.Gen.KernelIdeal.Frame
import proofs.«135429_j5342939316652_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The block-sized product's contraction: which entry of each factor the term `q` of entry `i` reads, axis by axis. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(p, q)` of a block's product is the sum over the 128 shared coordinates. -/
theorem pay_apply (x0 : Vec Ideal S4000x128 .f32) (x1 : Vec Ideal S128x128 .f32) (p : Fin 4000) (q : Fin 128) :
    k0_pay1 (F := Ideal) x0 x1 (ix2 p q) = ∑ k : Fin 128, x0 (ix2 p k) * x1 (ix2 k q) := by
  unfold k0_pay1
  show FloatOps.matmul dot_S4000x128_S128x128_S4000x128_1_0_0_1_n_n none (truncf .bf16 x0 bitsLt_bf16_f32) (truncf .bf16 x1 bitsLt_bf16_f32) (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [truncf_apply, truncf_apply, el, er]

theorem zero_off : (![0, 0] : Fin 2 → Nat) = fun _ => 0 := funext fun a => by fin_cases a <;> rfl

/-- The same at any index of the block, its two coordinates named. -/
theorem pay_at (x0 : Vec Ideal S4000x128 .f32) (x1 : Vec Ideal S128x128 .f32) (j : S4000x128.Idx) :
    k0_pay1 (F := Ideal) x0 x1 j
      = ∑ k : Fin 128, x0 (ix2 (⟨(j 0).val, idx2_lt0 j⟩ : Fin 4000) k) * x1 (ix2 k (⟨(j 1).val, idx2_lt1 j⟩ : Fin 128)) := by
  have hj : j = ix2 (⟨(j 0).val, idx2_lt0 j⟩ : Fin 4000) (⟨(j 1).val, idx2_lt1 j⟩ : Fin 128) := by
    funext a; match a with | ⟨0, _⟩ => rfl | ⟨1, _⟩ => rfl
  conv_lhs => rw [hj]
  exact pay_apply x0 x1 _ _

/-- The block maps, decided once over the 25 grid points: the left factor's block and the output's block are block
    row `t`, block column 0; the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `j` of the product of block `t` of the features with the weights is the entry of the whole product at the
    place of the array where entry `j` of output block `t` lies: row `4000 t + j₀` of the left factor is row `j₀` of
    its block `t`, and the weights' block is the whole matrix. -/
theorem block_entry (c : Dev nD) (t : Fin cfg0.N) (j : S4000x128.Idx) :
    k0_pay1 (F := Ideal) (iblk0 V c 0 t) (iblk0 V c 1 t) j
      = Cert.Spec.mm (V c main_arg0) (V c main_arg4) (((cfg0.win 2).blk t).view.emb j) := by
  obtain ⟨e0, e1, e2, e3, e4, e5⟩ := idx_facts t
  rw [pay_at]
  unfold Cert.Spec.mm
  refine Finset.sum_congr rfl fun k _ => ?_
  have h0 : ((cfg0.win 0).blk t).view.emb (ix2 (⟨(j 0).val, idx2_lt0 j⟩ : Fin 4000) k)
      = ix2 (⟨((((cfg0.win 2).blk t).view.emb j) 0).val, idx2_lt0 _⟩ : Fin 100000) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  have h1 : ((cfg0.win 1).blk t).view.emb (ix2 k (⟨(j 1).val, idx2_lt1 j⟩ : Fin 128))
      = ix2 k (⟨((((cfg0.win 2).blk t).view.emb j) 1).val, idx2_lt1 _⟩ : Fin 128) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have a0 : iblk0 V c 0 t (ix2 (⟨(j 0).val, idx2_lt0 j⟩ : Fin 4000) k)
      = V c main_arg0 (ix2 (⟨((((cfg0.win 2).blk t).view.emb j) 0).val, idx2_lt0 _⟩ : Fin 100000) k) :=
    congrArg (V c main_arg0) h0
  have a1 : iblk0 V c 1 t (ix2 k (⟨(j 1).val, idx2_lt1 j⟩ : Fin 128))
      = V c main_arg4 (ix2 k (⟨((((cfg0.win 2).blk t).view.emb j) 1).val, idx2_lt1 _⟩ : Fin 128)) :=
    congrArg (V c main_arg4) h1
  rw [a0, a1]

/-- What point `t` writes back is block `t` of the whole product. -/
theorem flushed_eq (c : Dev nD) (t : Fin cfg0.N) :
    (dat0 (F := Ideal) V c).flushed 2 t
      = ((cfg0.win 2).blk t).view.read (Elt Ideal) (Cert.Spec.mm (V c main_arg0) (V c main_arg4)) := by
  show (cfg0.win 2).cut (grid0.coords t) ((dat0 V c).after 2 t) = _
  rw [after0_2]
  unfold out0_2
  rw [View.canon_unit_zero zero_off]
  simp only [View.ld_unit_zero (S := S4000x128) zero_off, View.ld_unit_zero (S := S128x128) zero_off]
  funext j
  exact block_entry V c t j

/-- An index of the array lies in point `t`'s block iff each coordinate lies in the block's range on its axis. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v0).slice (win0_2.rect t)).set ↔ _
  rw [View.set_slice_whole, Rect.mem_set_unit]
  exact Iff.rfl

/-- The 25 blocks of 4000 rows tile the 100000 rows: row `r` lies in block `r / 4000`. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have h25 : cfg0.N = 25 := N_0
  obtain ⟨t, ht⟩ : ∃ t : Fin cfg0.N, t.val = (i 0).val / 4000 := ⟨⟨(i 0).val / 4000, by omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- The array the first launch leaves in its output is the dense product of the two arrays it reads. -/
theorem final (c : Dev nD) :
    (dat0 (F := Ideal) V c).arrAt 2 cfg0.N = Cert.Spec.mm (V c main_arg0) (V c main_arg4) :=
  (dat0 (F := Ideal) V c).arrAt_eq_of_cover 2 (Cert.Spec.mm (V c main_arg0) (V c main_arg4))
    (fun t _ => flushed_eq V c t) cover

end Cert.KernelIdeal.Region0

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region1.lean ====
/-
  The second launch: 196 blocks of 8192 padded edges. A block holds 8192 gathered feature rows and the 8192 edge values
  beside them; each row is multiplied by its own edge's value (the values reshaped to a column and repeated along the
  128 features). Row `e` of block `t` is edge `8192 t + e` in both windows, so the blocks are the restrictions of one
  whole-array function, and the 196 blocks tile the 1605632 padded edges.
-/
import proofs.«135429_j5342939316652_1_alg».proof.Proof.Gen.KernelIdeal.Frame
import proofs.«135429_j5342939316652_1_alg».proof.Proof.Spec
import proofs.«135429_j5342939316652_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The origin of a rank-1 block. -/
theorem origin1 : (![0] : Fin 1 → Nat) = fun _ => 0 := funext fun a => by fin_cases a; rfl

/-- The origin of a rank-2 block. -/
theorem origin2 : (![0, 0] : Fin 2 → Nat) = fun _ => 0 := funext fun a => by fin_cases a <;> rfl

/-- The body's result at row `p`, feature `q` of the block: the loaded row's entry times the loaded value of row `p`
    (the values become a column, the column is repeated along the features, the same-shape reshapes are identities). -/
theorem pay_apply (x0 : Vec Ideal S8192 .f32) (x1 : Vec Ideal S8192x128 .f32) (p : Fin 8192) (q : Fin 128) :
    k1_pay1 x0 x1 (ix2 p q) = x1 (ix2 p q) * x0 (ix1 p) := by
  unfold k1_pay1
  show (mulf _ _ : FVec Ideal S8192x128 .f32) (ix2 p q) = _
  rw [mulf_apply, shapeCast_self, shapeCast_self, Cert.LibColumn.broadcastTo_a1_ab_apply,
    Cert.LibColumn.shapeCast_a_a1_apply]

/-- The same at any entry `j` of the block. -/
theorem pay_apply_idx (x0 : Vec Ideal S8192 .f32) (x1 : Vec Ideal S8192x128 .f32) (j : S8192x128.Idx) :
    k1_pay1 x0 x1 j = x1 j * x0 (ix1 ⟨(j 0).val, idx2_lt0 j⟩) := by
  have hj : j = ix2 ⟨(j 0).val, idx2_lt0 j⟩ ⟨(j 1).val, idx2_lt1 j⟩ := by
    funext a; match a with | ⟨0, _⟩ => rfl | ⟨1, _⟩ => rfl
  refine (congrArg (k1_pay1 x0 x1) hj).trans ((pay_apply x0 x1 _ _).trans ?_)
  rw [← hj]

/-- The scaling at a row-array entry `i`, with the edge named by any rank-1 index of the same coordinate. -/
theorem scale_apply (v : FVec Ideal Cert.Spec.SEdgesP .f32) (g : FVec Ideal Cert.Spec.SRowsP .f32)
    (i : Cert.Spec.SRowsP.Idx) (e : Cert.Spec.SEdgesP.Idx) (h : (e 0).val = (i 0).val) :
    Cert.Spec.scale v g i = g i * v e := by
  have he : e = ix1 ⟨(i 0).val, idx2_lt0 i⟩ := by
    funext a; match a with | ⟨0, _⟩ => exact Fin.ext h
  rw [he]; rfl

/-- The index maps over the 196 points: point `t` stages block `t` of the edge values, and block row `t`, block column
    `0` of the gathered rows and of the output. -/
theorem idx_facts : ∀ t : Fin cfg1.N,
    win1_0.index t (0 : Fin 1) = t.val
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the scaled rows of the whole arrays: entry `(p, q)` of the row blocks
    is array entry `(8192 t + p, q)`, and entry `p` of the value block is edge `8192 t + p`. -/
theorem flushed_eq (c : Dev nD) (t : Fin cfg1.N) :
    (dat1 (F := Ideal) V c).flushed 2 t
      = ((cfg1.win 2).blk t).view.read (Elt Ideal) (Cert.Spec.scale (V c main_v2) (V c main_v10)) := by
  show (cfg1.win 2).cut (grid1.coords t) ((dat1 (F := Ideal) V c).after 2 t) = _
  rw [after1_2]
  unfold out1_2
  rw [View.canon_unit_zero origin2]
  simp only [View.ld_unit_zero (S := S8192x128) origin2, View.ld_unit_zero (S := S8192) origin1]
  obtain ⟨e0, e1, e2, e3, e4⟩ := idx_facts t
  funext j
  show k1_pay1 (iblk1 V c 0 t) (iblk1 V c 1 t) j
    = Cert.Spec.scale (V c main_v2) (V c main_v10) (((cfg1.win 2).blk t).view.emb j)
  refine (pay_apply_idx _ _ j).trans ?_
  have hemb : ((cfg1.win 1).blk t).view.emb j = ((cfg1.win 2).blk t).view.emb j := by
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 128 + 1 * (j 1).val = win1_2.index t (1 : Fin 2) * 128 + 1 * (j 1).val; omega
  have hrow : iblk1 V c 1 t j = V c main_v10 (((cfg1.win 2).blk t).view.emb j) := by
    show V c main_v10 (((cfg1.win 1).blk t).view.emb j) = V c main_v10 (((cfg1.win 2).blk t).view.emb j)
    rw [hemb]
  rw [hrow]
  refine Eq.trans ?_ (scale_apply _ _ _ (((cfg1.win 0).blk t).view.emb (ix1 ⟨(j 0).val, idx2_lt0 j⟩)) ?_).symm
  · rfl
  · show win1_0.index t (0 : Fin 1) * 8192 + 1 * (j 0).val = win1_2.index t (0 : Fin 2) * 8192 + 1 * (j 0).val
    omega

/-- An index of the array is in point `t`'s block iff each coordinate is in the block's range on its axis. -/
theorem mem_blk (t : Fin cfg1.N) (i : S1605632x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v11).slice (win1_2.rect t)).set ↔ _
  rw [View.set_slice_whole, Rect.mem_set_unit]
  exact Iff.rfl

/-- The 196 blocks of 8192 rows tile the 1605632 rows: row `r` is in block `r / 8192`. -/
theorem cover (i : S1605632x128.Idx) :
    ∃ t : Fin cfg1.N, (cfg1.win 2).flush t = true ∧ i ∈ ((cfg1.win 2).blk t).view.set := by
  have hi0 : (i 0).val < 1605632 := idx2_lt0 i
  have hi1 : (i 1).val < 128 := idx2_lt1 i
  have hN : cfg1.N = 196 := N_1
  refine ⟨⟨(i 0).val / 8192, by rw [hN]; omega⟩, flush1_2 _, ?_⟩
  rw [mem_blk]
  obtain ⟨-, -, -, e3, e4⟩ := idx_facts ⟨(i 0).val / 8192, by rw [hN]; omega⟩
  intro a
  match a with
  | ⟨0, _⟩ =>
    show win1_2.index _ (0 : Fin 2) * 8192 ≤ (i 0).val ∧ (i 0).val < win1_2.index _ (0 : Fin 2) * 8192 + 8192
    rw [e3]; show (i 0).val / 8192 * 8192 ≤ (i 0).val ∧ (i 0).val < (i 0).val / 8192 * 8192 + 8192; omega
  | ⟨1, _⟩ =>
    show win1_2.index _ (1 : Fin 2) * 128 ≤ (i 1).val ∧ (i 1).val < win1_2.index _ (1 : Fin 2) * 128 + 128
    rw [e4]; omega

/-- The array the second launch leaves in its output is each gathered row times its edge's value. -/
theorem final (c : Dev nD) :
    (dat1 (F := Ideal) V c).arrAt 2 cfg1.N = Cert.Spec.scale (V c main_v2) (V c main_v10) :=
  (dat1 (F := Ideal) V c).arrAt_eq_of_cover 2 (Cert.Spec.scale (V c main_v2) (V c main_v10))
    (fun t _ => flushed_eq V c t) cover

end Cert.KernelIdeal.Region1

end
-- ==== Proof.Region2.lean ====
/-
  The third launch: 25 blocks of 4000 node rows; each block's positive part is multiplied by the whole second weight
  matrix. Taking the positive part entry by entry commutes with cutting out a block of rows, so block `t` of the result
  is rows `4000 t … 4000 t + 3999` of the product of the positive part of the whole array with the weights, and the 25
  blocks tile the 100000 rows.
-/
import proofs.«135429_j5342939316652_1_alg».proof.Proof.Gen.KernelIdeal.Frame
import proofs.«135429_j5342939316652_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The block-sized product's contraction: which entry of each factor the term `q` of entry `i` reads, axis by axis. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(p, q)` of a block's product: the sum over the 128 shared coordinates, the left factor's entries replaced by
    their positive parts. -/
theorem pay_apply (x0 : Vec Ideal S4000x128 .f32) (x1 : Vec Ideal S128x128 .f32) (p : Fin 4000) (q : Fin 128) :
    k2_pay1 (F := Ideal) x0 x1 (ix2 p q) = ∑ k : Fin 128, max (x0 (ix2 p k)) 0 * x1 (ix2 k q) := by
  unfold k2_pay1
  show FloatOps.matmul dot_S4000x128_S128x128_S4000x128_1_0_0_1_n_n none
      (truncf .bf16 (maximumf (shapeCast S4000x128 x0 shapeCasts_S4000x128_S4000x128)
        (broadcast S4000x128 (Scalar.ofBits (F := Ideal) .f32 0x00000000#32))) bitsLt_bf16_f32)
      (truncf .bf16 x1 bitsLt_bf16_f32) (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [truncf_apply, truncf_apply, el, er, maximumf_apply, shapeCast_self, broadcast_apply]
  rw [Ideal.ofBits_def, Ideal.ofBits_zero_f32]

theorem zero_off : (![0, 0] : Fin 2 → Nat) = fun _ => 0 := funext fun a => by fin_cases a <;> rfl

/-- The same at any index of the block, its two coordinates named. -/
theorem pay_at (x0 : Vec Ideal S4000x128 .f32) (x1 : Vec Ideal S128x128 .f32) (j : S4000x128.Idx) :
    k2_pay1 (F := Ideal) x0 x1 j
      = ∑ k : Fin 128, max (x0 (ix2 (⟨(j 0).val, idx2_lt0 j⟩ : Fin 4000) k)) 0 * x1 (ix2 k (⟨(j 1).val, idx2_lt1 j⟩ : Fin 128)) := by
  have hj : j = ix2 (⟨(j 0).val, idx2_lt0 j⟩ : Fin 4000) (⟨(j 1).val, idx2_lt1 j⟩ : Fin 128) := by
    funext a; match a with | ⟨0, _⟩ => rfl | ⟨1, _⟩ => rfl
  conv_lhs => rw [hj]
  exact pay_apply x0 x1 _ _

/-- The block maps, decided once over the 25 grid points: the left factor's block and the output's block are block
    row `t`, block column 0; the weights' block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `j` of the product of the positive part of block `t` with the weights is the entry, at the place of the array
    where entry `j` of output block `t` lies, of the product of the positive part of the whole array with the weights:
    the positive part is taken entry by entry, so the positive part of a block is the block of the positive part; row
    `4000 t + j₀` of the left factor is row `j₀` of its block `t`; the weights' block is the whole matrix. -/
theorem block_entry (c : Dev nD) (t : Fin cfg2.N) (j : S4000x128.Idx) :
    k2_pay1 (F := Ideal) (iblk2 V c 0 t) (iblk2 V c 1 t) j
      = Cert.Spec.mm (Cert.Spec.relu (V c main_v14)) (V c main_arg5) (((cfg2.win 2).blk t).view.emb j) := by
  obtain ⟨e0, e1, e2, e3, e4, e5⟩ := idx_facts t
  rw [pay_at]
  unfold Cert.Spec.mm Cert.Spec.relu
  refine Finset.sum_congr rfl fun k _ => ?_
  have h0 : ((cfg2.win 0).blk t).view.emb (ix2 (⟨(j 0).val, idx2_lt0 j⟩ : Fin 4000) k)
      = ix2 (⟨((((cfg2.win 2).blk t).view.emb j) 0).val, idx2_lt0 _⟩ : Fin 100000) k := by
    funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  have h1 : ((cfg2.win 1).blk t).view.emb (ix2 k (⟨(j 1).val, idx2_lt1 j⟩ : Fin 128))
      = ix2 k (⟨((((cfg2.win 2).blk t).view.emb j) 1).val, idx2_lt1 _⟩ : Fin 128) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have a0 : iblk2 V c 0 t (ix2 (⟨(j 0).val, idx2_lt0 j⟩ : Fin 4000) k)
      = V c main_v14 (ix2 (⟨((((cfg2.win 2).blk t).view.emb j) 0).val, idx2_lt0 _⟩ : Fin 100000) k) :=
    congrArg (V c main_v14) h0
  have a1 : iblk2 V c 1 t (ix2 k (⟨(j 1).val, idx2_lt1 j⟩ : Fin 128))
      = V c main_arg5 (ix2 k (⟨((((cfg2.win 2).blk t).view.emb j) 1).val, idx2_lt1 _⟩ : Fin 128)) :=
    congrArg (V c main_arg5) h1
  rw [a0, a1]

/-- What point `t` writes back is block `t` of the whole product. -/
theorem flushed_eq (c : Dev nD) (t : Fin cfg2.N) :
    (dat2 (F := Ideal) V c).flushed 2 t
      = ((cfg2.win 2).blk t).view.read (Elt Ideal) (Cert.Spec.mm (Cert.Spec.relu (V c main_v14)) (V c main_arg5)) := by
  show (cfg2.win 2).cut (grid2.coords t) ((dat2 V c).after 2 t) = _
  rw [after2_2]
  unfold out2_2
  rw [View.canon_unit_zero zero_off]
  simp only [View.ld_unit_zero (S := S4000x128) zero_off, View.ld_unit_zero (S := S128x128) zero_off]
  funext j
  exact block_entry V c t j

/-- An index of the array lies in point `t`'s block iff each coordinate lies in the block's range on its axis. -/
theorem mem_blk (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v15).slice (win2_2.rect t)).set ↔ _
  rw [View.set_slice_whole, Rect.mem_set_unit]
  exact Iff.rfl

/-- The 25 blocks of 4000 rows tile the 100000 rows: row `r` lies in block `r / 4000`. -/
theorem cover (i : S100000x128.Idx) :
    ∃ t : Fin cfg2.N, (cfg2.win 2).flush t = true ∧ i ∈ ((cfg2.win 2).blk t).view.set := by
  have hi0 : (i 0).val < 100000 := idx2_lt0 i
  have hi1 : (i 1).val < 128 := idx2_lt1 i
  have h25 : cfg2.N = 25 := N_2
  obtain ⟨t, ht⟩ : ∃ t : Fin cfg2.N, t.val = (i 0).val / 4000 := ⟨⟨(i 0).val / 4000, by omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 4000 ≤ (i 0).val ∧ (i 0).val < win2_2.index t (0 : Fin 2) * 4000 + 4000
    omega
  | ⟨1, _⟩ =>
    show win2_2.index t (1 : Fin 2) * 128 ≤ (i 1).val ∧ (i 1).val < win2_2.index t (1 : Fin 2) * 128 + 128
    omega

/-- The array the third launch leaves in its output is the dense product of the positive part of its first input
    with its second. -/
theorem final (c : Dev nD) :
    (dat2 (F := Ideal) V c).arrAt 2 cfg2.N = Cert.Spec.mm (Cert.Spec.relu (V c main_v14)) (V c main_arg5) :=
  (dat2 (F := Ideal) V c).arrAt_eq_of_cover 2 (Cert.Spec.mm (Cert.Spec.relu (V c main_v14)) (V c main_arg5))
    (fun t _ => flushed_eq V c t) cover

end Cert.KernelIdeal.Region2

end
-- ==== Proof.Region3.lean ====
/-
  The fourth launch: the second layer's per-edge scaling, 196 blocks of 8192 padded edges. Each gathered feature row is
  multiplied by its own edge's value; row `e` of block `t` is edge `8192 t + e` in both windows, and the 196 blocks tile
  the 1605632 padded edges.
-/
import proofs.«135429_j5342939316652_1_alg».proof.Proof.Gen.KernelIdeal.Frame
import proofs.«135429_j5342939316652_1_alg».proof.Proof.Spec
import proofs.«135429_j5342939316652_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The origin of a rank-1 block. -/
theorem origin1 : (![0] : Fin 1 → Nat) = fun _ => 0 := funext fun a => by fin_cases a; rfl

/-- The origin of a rank-2 block. -/
theorem origin2 : (![0, 0] : Fin 2 → Nat) = fun _ => 0 := funext fun a => by fin_cases a <;> rfl

/-- The body's result at row `p`, feature `q` of the block: the loaded row's entry times the loaded value of row `p`
    (the values become a column, the column is repeated along the features, the same-shape reshapes are identities). -/
theorem pay_apply (x0 : Vec Ideal S8192 .f32) (x1 : Vec Ideal S8192x128 .f32) (p : Fin 8192) (q : Fin 128) :
    k3_pay1 x0 x1 (ix2 p q) = x1 (ix2 p q) * x0 (ix1 p) := by
  unfold k3_pay1
  show (mulf _ _ : FVec Ideal S8192x128 .f32) (ix2 p q) = _
  rw [mulf_apply, shapeCast_self, shapeCast_self, Cert.LibColumn.broadcastTo_a1_ab_apply,
    Cert.LibColumn.shapeCast_a_a1_apply]

/-- The same at any entry `j` of the block. -/
theorem pay_apply_idx (x0 : Vec Ideal S8192 .f32) (x1 : Vec Ideal S8192x128 .f32) (j : S8192x128.Idx) :
    k3_pay1 x0 x1 j = x1 j * x0 (ix1 ⟨(j 0).val, idx2_lt0 j⟩) := by
  have hj : j = ix2 ⟨(j 0).val, idx2_lt0 j⟩ ⟨(j 1).val, idx2_lt1 j⟩ := by
    funext a; match a with | ⟨0, _⟩ => rfl | ⟨1, _⟩ => rfl
  refine (congrArg (k3_pay1 x0 x1) hj).trans ((pay_apply x0 x1 _ _).trans ?_)
  rw [← hj]

/-- The scaling at a row-array entry `i`, with the edge named by any rank-1 index of the same coordinate. -/
theorem scale_apply (v : FVec Ideal Cert.Spec.SEdgesP .f32) (g : FVec Ideal Cert.Spec.SRowsP .f32)
    (i : Cert.Spec.SRowsP.Idx) (e : Cert.Spec.SEdgesP.Idx) (h : (e 0).val = (i 0).val) :
    Cert.Spec.scale v g i = g i * v e := by
  have he : e = ix1 ⟨(i 0).val, idx2_lt0 i⟩ := by
    funext a; match a with | ⟨0, _⟩ => exact Fin.ext h
  rw [he]; rfl

/-- The index maps over the 196 points: point `t` stages block `t` of the edge values, and block row `t`, block column
    `0` of the gathered rows and of the output. -/
theorem idx_facts : ∀ t : Fin cfg3.N,
    win3_0.index t (0 : Fin 1) = t.val
    ∧ win3_1.index t (0 : Fin 2) = t.val
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the scaled rows of the whole arrays: entry `(p, q)` of the row blocks
    is array entry `(8192 t + p, q)`, and entry `p` of the value block is edge `8192 t + p`. -/
theorem flushed_eq (c : Dev nD) (t : Fin cfg3.N) :
    (dat3 (F := Ideal) V c).flushed 2 t
      = ((cfg3.win 2).blk t).view.read (Elt Ideal) (Cert.Spec.scale (V c main_v17) (V c main_v25)) := by
  show (cfg3.win 2).cut (grid3.coords t) ((dat3 (F := Ideal) V c).after 2 t) = _
  rw [after3_2]
  unfold out3_2
  rw [View.canon_unit_zero origin2]
  simp only [View.ld_unit_zero (S := S8192x128) origin2, View.ld_unit_zero (S := S8192) origin1]
  obtain ⟨e0, e1, e2, e3, e4⟩ := idx_facts t
  funext j
  show k3_pay1 (iblk3 V c 0 t) (iblk3 V c 1 t) j
    = Cert.Spec.scale (V c main_v17) (V c main_v25) (((cfg3.win 2).blk t).view.emb j)
  refine (pay_apply_idx _ _ j).trans ?_
  have hemb : ((cfg3.win 1).blk t).view.emb j = ((cfg3.win 2).blk t).view.emb j := by
    funext a; apply Fin.ext
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 128 + 1 * (j 1).val = win3_2.index t (1 : Fin 2) * 128 + 1 * (j 1).val; omega
  have hrow : iblk3 V c 1 t j = V c main_v25 (((cfg3.win 2).blk t).view.emb j) := by
    show V c main_v25 (((cfg3.win 1).blk t).view.emb j) = V c main_v25 (((cfg3.win 2).blk t).view.emb j)
    rw [hemb]
  rw [hrow]
  refine Eq.trans ?_ (scale_apply _ _ _ (((cfg3.win 0).blk t).view.emb (ix1 ⟨(j 0).val, idx2_lt0 j⟩)) ?_).symm
  · rfl
  · show win3_0.index t (0 : Fin 1) * 8192 + 1 * (j 0).val = win3_2.index t (0 : Fin 2) * 8192 + 1 * (j 0).val
    omega

/-- An index of the array is in point `t`'s block iff each coordinate is in the block's range on its axis. -/
theorem mem_blk (t : Fin cfg3.N) (i : S1605632x128.Idx) :
    i ∈ ((cfg3.win 2).blk t).view.set ↔ ∀ a : Fin 2, win3_2.index t a * S8192x128.size a ≤ (i a).val ∧ (i a).val < win3_2.index t a * S8192x128.size a + S8192x128.size a := by
  show i ∈ ((View.whole main_v26).slice (win3_2.rect t)).set ↔ _
  rw [View.set_slice_whole, Rect.mem_set_unit]
  exact Iff.rfl

/-- The 196 blocks of 8192 rows tile the 1605632 rows: row `r` is in block `r / 8192`. -/
theorem cover (i : S1605632x128.Idx) :
    ∃ t : Fin cfg3.N, (cfg3.win 2).flush t = true ∧ i ∈ ((cfg3.win 2).blk t).view.set := by
  have hi0 : (i 0).val < 1605632 := idx2_lt0 i
  have hi1 : (i 1).val < 128 := idx2_lt1 i
  have hN : cfg3.N = 196 := N_3
  refine ⟨⟨(i 0).val / 8192, by rw [hN]; omega⟩, flush3_2 _, ?_⟩
  rw [mem_blk]
  obtain ⟨-, -, -, e3, e4⟩ := idx_facts ⟨(i 0).val / 8192, by rw [hN]; omega⟩
  intro a
  match a with
  | ⟨0, _⟩ =>
    show win3_2.index _ (0 : Fin 2) * 8192 ≤ (i 0).val ∧ (i 0).val < win3_2.index _ (0 : Fin 2) * 8192 + 8192
    rw [e3]; show (i 0).val / 8192 * 8192 ≤ (i 0).val ∧ (i 0).val < (i 0).val / 8192 * 8192 + 8192; omega
  | ⟨1, _⟩ =>
    show win3_2.index _ (1 : Fin 2) * 128 ≤ (i 1).val ∧ (i 1).val < win3_2.index _ (1 : Fin 2) * 128 + 128
    rw [e4]; omega

/-- The array the fourth launch leaves in its output is each gathered row times its edge's value. -/
theorem final (c : Dev nD) :
    (dat3 (F := Ideal) V c).arrAt 2 cfg3.N = Cert.Spec.scale (V c main_v17) (V c main_v25) :=
  (dat3 (F := Ideal) V c).arrAt_eq_of_cover 2 (Cert.Spec.scale (V c main_v17) (V c main_v25))
    (fun t _ => flushed_eq V c t) cover

end Cert.KernelIdeal.Region3

end
-- ==== Proof.Region4.lean ====
/-
  The last launch: the positive part, 25 blocks of 4000 node rows. The operation is entry by entry, so each block is
  the restriction of the positive part of the whole array, and the 25 blocks tile the 100000 rows.
-/
import proofs.«135429_j5342939316652_1_alg».proof.Proof.Gen.KernelIdeal.Frame
import proofs.«135429_j5342939316652_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The origin of a rank-2 block. -/
theorem origin2 : (![0, 0] : Fin 2 → Nat) = fun _ => 0 := funext fun a => by fin_cases a <;> rfl

/-- The body's result at an entry of the block: the larger of the loaded entry and zero (the same-shape reshape is the
    identity, the constant's word is the real zero). -/
theorem pay_apply (x0 : Vec Ideal S4000x128 .f32) (j : S4000x128.Idx) :
    k4_pay1 x0 j = max (x0 j) 0 := by
  unfold k4_pay1
  show max (shapeCast S4000x128 x0 shapeCasts_S4000x128_S4000x128 j) (Ideal.ofBits .f32 0x00000000#32) = _
  rw [shapeCast_self, Ideal.ofBits_zero_f32]

/-- The index maps over the 25 points: the input block sits where the output block does, and point `t`'s output block
    is block row `t`, block column `0`. -/
theorem idx_facts : ∀ t : Fin cfg4.N,
    win4_0.index t (0 : Fin 2) = win4_1.index t (0 : Fin 2)
    ∧ win4_0.index t (1 : Fin 2) = win4_1.index t (1 : Fin 2)
    ∧ win4_1.index t (0 : Fin 2) = t.val
    ∧ win4_1.index t (1 : Fin 2) = 0 :=
  (by decide +kernel : ∀ t : Fin grid4.N, _)

/-- What point `t` writes back is block `t` of the positive part of the whole input array: entry `j` of both blocks is
    array entry `(4000 t + j₀, j₁)`. -/
theorem flushed_eq (c : Dev nD) (t : Fin cfg4.N) :
    (dat4 (F := Ideal) V c).flushed 1 t
      = ((cfg4.win 1).blk t).view.read (Elt Ideal) (Cert.Spec.relu (V c main_v29)) := by
  show (cfg4.win 1).cut (grid4.coords t) ((dat4 (F := Ideal) V c).after 1 t) = _
  rw [after4_1]
  unfold out4_1
  rw [View.canon_unit_zero origin2]
  simp only [View.ld_unit_zero (S := S4000x128) origin2]
  obtain ⟨e0, e1, e2, e3⟩ := idx_facts t
  funext j
  show k4_pay1 (iblk4 V c 0 t) j = Cert.Spec.relu (V c main_v29) (((cfg4.win 1).blk t).view.emb j)
  refine (pay_apply _ j).trans ?_
  have hemb : ((cfg4.win 0).blk t).view.emb j = ((cfg4.win 1).blk t).view.emb j := by
    funext a; apply Fin.ext
    match a with
    | ⟨0, _⟩ => show win4_0.index t (0 : Fin 2) * 4000 + 1 * (j 0).val = win4_1.index t (0 : Fin 2) * 4000 + 1 * (j 0).val; omega
    | ⟨1, _⟩ => show win4_0.index t (1 : Fin 2) * 128 + 1 * (j 1).val = win4_1.index t (1 : Fin 2) * 128 + 1 * (j 1).val; omega
  have hin : iblk4 V c 0 t j = V c main_v29 (((cfg4.win 1).blk t).view.emb j) := by
    show V c main_v29 (((cfg4.win 0).blk t).view.emb j) = V c main_v29 (((cfg4.win 1).blk t).view.emb j)
    rw [hemb]
  rw [hin]
  rfl

/-- An index of the array is in point `t`'s block iff each coordinate is in the block's range on its axis. -/
theorem mem_blk (t : Fin cfg4.N) (i : S100000x128.Idx) :
    i ∈ ((cfg4.win 1).blk t).view.set ↔ ∀ a : Fin 2, win4_1.index t a * S4000x128.size a ≤ (i a).val ∧ (i a).val < win4_1.index t a * S4000x128.size a + S4000x128.size a := by
  show i ∈ ((View.whole main_v30).slice (win4_1.rect t)).set ↔ _
  rw [View.set_slice_whole, Rect.mem_set_unit]
  exact Iff.rfl

/-- The 25 blocks of 4000 rows tile the 100000 rows: row `r` is in block `r / 4000`. -/
theorem cover (i : S100000x128.Idx) :
    ∃ t : Fin cfg4.N, (cfg4.win 1).flush t = true ∧ i ∈ ((cfg4.win 1).blk t).view.set := by
  have hi0 : (i 0).val < 100000 := idx2_lt0 i
  have hi1 : (i 1).val < 128 := idx2_lt1 i
  have hN : cfg4.N = 25 := N_4
  refine ⟨⟨(i 0).val / 4000, by rw [hN]; omega⟩, flush4_1 _, ?_⟩
  rw [mem_blk]
  obtain ⟨-, -, e2, e3⟩ := idx_facts ⟨(i 0).val / 4000, by rw [hN]; omega⟩
  intro a
  match a with
  | ⟨0, _⟩ =>
    show win4_1.index _ (0 : Fin 2) * 4000 ≤ (i 0).val ∧ (i 0).val < win4_1.index _ (0 : Fin 2) * 4000 + 4000
    rw [e2]; show (i 0).val / 4000 * 4000 ≤ (i 0).val ∧ (i 0).val < (i 0).val / 4000 * 4000 + 4000; omega
  | ⟨1, _⟩ =>
    show win4_1.index _ (1 : Fin 2) * 128 ≤ (i 1).val ∧ (i 1).val < win4_1.index _ (1 : Fin 2) * 128 + 128
    rw [e3]; omega

/-- The array the last launch leaves in its output is the positive part of its input. -/
theorem final (c : Dev nD) :
    (dat4 (F := Ideal) V c).arrAt 1 cfg4.N = Cert.Spec.relu (V c main_v29) :=
  (dat4 (F := Ideal) V c).arrAt_eq_of_cover 1 (Cert.Spec.relu (V c main_v29)) (fun t _ => flushed_eq V c t) cover

end Cert.KernelIdeal.Region4

end
-- ==== Proof.KernelValue.lean ====
/-
  The kernel's result array, followed back through the program. The program is five launches with host operations
  between them; the contents of every buffer at each boundary are a function of the contents at the boundary before.
  Reading the one result buffer back, boundary by boundary: the last launch leaves the positive part of the second
  layer's scatter-add; that scatter-add starts from zero and adds the scaled gathered rows the fourth launch left,
  at the padded row indices; the gathered rows are rows of the third launch's dense product, named by the padded and
  wrapped column indices; the third launch multiplied the positive part of the first layer's scatter-add by the second
  weights; and the first layer is the same chain over the first launch's dense product of the features and the first
  weights. No launch and no host operation writes an argument, so at every boundary the arguments are as launched.
-/
import proofs.«135429_j5342939316652_1_alg».proof.Proof.Gen.KernelIdeal.Frame
import proofs.«135429_j5342939316652_1_alg».proof.Proof.KernelSpec
import proofs.«135429_j5342939316652_1_alg».proof.Proof.Region0
import proofs.«135429_j5342939316652_1_alg».proof.Proof.Region1
import proofs.«135429_j5342939316652_1_alg».proof.Proof.Region2
import proofs.«135429_j5342939316652_1_alg».proof.Proof.Region3
import proofs.«135429_j5342939316652_1_alg».proof.Proof.Region4
import Idealize.ShloMosaic.Lib.StableHlo.Run

set_option maxRecDepth 16384

noncomputable section

namespace Cert.KernelIdeal.KValue

open Cert.KernelIdeal Cert.KernelIdeal.Gen Cert.KernelIdeal.KSpec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first launch: the dense product of the features and the first weights -/

theorem W1_v0 (c : Dev nD) : W1 m ρ c (Proc.devRef .tc main_v0) = Cert.Spec.mm (m ((c : Thread nD τ).loc main_arg0)) (m ((c : Thread nD τ).loc main_arg4)) :=
  (W1_arr m ρ c 2).trans (Region0.final (V0 m ρ) c)
theorem W1_arg1 (c : Dev nD) : W1 m ρ c (Proc.devRef .tc main_arg1) = (m ((c : Thread nD τ).loc main_arg1)) := W1_of_ne m ρ c main_arg1 (by decide)
theorem W1_arg2 (c : Dev nD) : W1 m ρ c (Proc.devRef .tc main_arg2) = (m ((c : Thread nD τ).loc main_arg2)) := W1_of_ne m ρ c main_arg2 (by decide)
theorem W1_arg3 (c : Dev nD) : W1 m ρ c (Proc.devRef .tc main_arg3) = (m ((c : Thread nD τ).loc main_arg3)) := W1_of_ne m ρ c main_arg3 (by decide)
theorem W1_arg5 (c : Dev nD) : W1 m ρ c (Proc.devRef .tc main_arg5) = (m ((c : Thread nD τ).loc main_arg5)) := W1_of_ne m ρ c main_arg5 (by decide)

/-! ## The host operations before the second launch: padding, wrapping, the gather -/

set_option maxHeartbeats 2000000 in
theorem W8_v10 (c : Dev nD) : W8 m ρ c (Proc.devRef .tc main_v10) = Host.gather gather_S100000x128_S1605632x1_S1605632x128_1_0_n_n_0_1_1128 (W1 m ρ c (Proc.devRef .tc main_v0)) (colIdx (W1 m ρ c (Proc.devRef .tc main_arg2))) := by
  dsimp only [W8, W7, W6, W5, W4, W3, W2]
  generalize W1 m ρ c = W
  simp only [hostOps1, hostOps1_1, hostOps1_2, hostOps1_3, hostOps1_4, hostOps1_5, hostOps1_6]
  after_results
  first | done | rfl
theorem W8_v2 (c : Dev nD) : W8 m ρ c (Proc.devRef .tc main_v2) = padF (W1 m ρ c (Proc.devRef .tc main_arg3)) := by
  dsimp only [W8, W7, W6, W5, W4, W3, W2]
  generalize W1 m ρ c = W
  simp only [hostOps1, hostOps1_1, hostOps1_2, hostOps1_3, hostOps1_4, hostOps1_5, hostOps1_6]
  after_results
  first | done | rfl
theorem W8_v3 (c : Dev nD) : W8 m ρ c (Proc.devRef .tc main_v3) = padI (W1 m ρ c (Proc.devRef .tc main_arg1)) := by
  dsimp only [W8, W7, W6, W5, W4, W3, W2]
  generalize W1 m ρ c = W
  simp only [hostOps1, hostOps1_1, hostOps1_2, hostOps1_3, hostOps1_4, hostOps1_5, hostOps1_6]
  after_results
  first | done | rfl
theorem W8_arg1 (c : Dev nD) : W8 m ρ c (Proc.devRef .tc main_arg1) = (W1 m ρ c (Proc.devRef .tc main_arg1)) := by
  dsimp only [W8, W7, W6, W5, W4, W3, W2]
  generalize W1 m ρ c = W
  simp only [hostOps1, hostOps1_1, hostOps1_2, hostOps1_3, hostOps1_4, hostOps1_5, hostOps1_6]
  after_results
  first | done | rfl
theorem W8_arg2 (c : Dev nD) : W8 m ρ c (Proc.devRef .tc main_arg2) = (W1 m ρ c (Proc.devRef .tc main_arg2)) := by
  dsimp only [W8, W7, W6, W5, W4, W3, W2]
  generalize W1 m ρ c = W
  simp only [hostOps1, hostOps1_1, hostOps1_2, hostOps1_3, hostOps1_4, hostOps1_5, hostOps1_6]
  after_results
  first | done | rfl
theorem W8_arg3 (c : Dev nD) : W8 m ρ c (Proc.devRef .tc main_arg3) = (W1 m ρ c (Proc.devRef .tc main_arg3)) := by
  dsimp only [W8, W7, W6, W5, W4, W3, W2]
  generalize W1 m ρ c = W
  simp only [hostOps1, hostOps1_1, hostOps1_2, hostOps1_3, hostOps1_4, hostOps1_5, hostOps1_6]
  after_results
  first | done | rfl
theorem W8_arg5 (c : Dev nD) : W8 m ρ c (Proc.devRef .tc main_arg5) = (W1 m ρ c (Proc.devRef .tc main_arg5)) := by
  dsimp only [W8, W7, W6, W5, W4, W3, W2]
  generalize W1 m ρ c = W
  simp only [hostOps1, hostOps1_1, hostOps1_2, hostOps1_3, hostOps1_4, hostOps1_5, hostOps1_6]
  after_results
  first | done | rfl

/-! ## After the second launch: each gathered row times its edge's value -/

theorem W9_v11 (c : Dev nD) : W9 m ρ c (Proc.devRef .tc main_v11) = Cert.Spec.scale (W8 m ρ c (Proc.devRef .tc main_v2)) (W8 m ρ c (Proc.devRef .tc main_v10)) :=
  (W9_arr m ρ c 2).trans (Region1.final (V8 m ρ) c)
theorem W9_v3 (c : Dev nD) : W9 m ρ c (Proc.devRef .tc main_v3) = (W8 m ρ c (Proc.devRef .tc main_v3)) := W9_of_ne m ρ c main_v3 (by decide)
theorem W9_arg1 (c : Dev nD) : W9 m ρ c (Proc.devRef .tc main_arg1) = (W8 m ρ c (Proc.devRef .tc main_arg1)) := W9_of_ne m ρ c main_arg1 (by decide)
theorem W9_arg2 (c : Dev nD) : W9 m ρ c (Proc.devRef .tc main_arg2) = (W8 m ρ c (Proc.devRef .tc main_arg2)) := W9_of_ne m ρ c main_arg2 (by decide)
theorem W9_arg3 (c : Dev nD) : W9 m ρ c (Proc.devRef .tc main_arg3) = (W8 m ρ c (Proc.devRef .tc main_arg3)) := W9_of_ne m ρ c main_arg3 (by decide)
theorem W9_arg5 (c : Dev nD) : W9 m ρ c (Proc.devRef .tc main_arg5) = (W8 m ρ c (Proc.devRef .tc main_arg5)) := W9_of_ne m ρ c main_arg5 (by decide)

/-! ## The first layer's scatter-add -/

theorem W10_v14 (c : Dev nD) : W10 m ρ c (Proc.devRef .tc main_v14) = Host.scatterAdd scatter_S100000x128_S1605632x1_S1605632x128_1_0_0_1 zeros (broadcastInDim S1605632x1 ![0] Facts₀.bcast_S1605632_S1605632x1_0 (W9 m ρ c (Proc.devRef .tc main_v3))) (W9 m ρ c (Proc.devRef .tc main_v11)) := by
  dsimp only [W10]
  generalize W9 m ρ c = W
  simp only [hostOps2]
  after_results
  first | done | rfl
theorem W10_arg1 (c : Dev nD) : W10 m ρ c (Proc.devRef .tc main_arg1) = (W9 m ρ c (Proc.devRef .tc main_arg1)) := by
  dsimp only [W10]
  generalize W9 m ρ c = W
  simp only [hostOps2]
  after_results
  first | done | rfl
theorem W10_arg2 (c : Dev nD) : W10 m ρ c (Proc.devRef .tc main_arg2) = (W9 m ρ c (Proc.devRef .tc main_arg2)) := by
  dsimp only [W10]
  generalize W9 m ρ c = W
  simp only [hostOps2]
  after_results
  first | done | rfl
theorem W10_arg3 (c : Dev nD) : W10 m ρ c (Proc.devRef .tc main_arg3) = (W9 m ρ c (Proc.devRef .tc main_arg3)) := by
  dsimp only [W10]
  generalize W9 m ρ c = W
  simp only [hostOps2]
  after_results
  first | done | rfl
theorem W10_arg5 (c : Dev nD) : W10 m ρ c (Proc.devRef .tc main_arg5) = (W9 m ρ c (Proc.devRef .tc main_arg5)) := by
  dsimp only [W10]
  generalize W9 m ρ c = W
  simp only [hostOps2]
  after_results
  first | done | rfl

/-! ## After the third launch: the positive part times the second weights -/

theorem W11_v15 (c : Dev nD) : W11 m ρ c (Proc.devRef .tc main_v15) = Cert.Spec.mm (Cert.Spec.relu (W10 m ρ c (Proc.devRef .tc main_v14))) (W10 m ρ c (Proc.devRef .tc main_arg5)) :=
  (W11_arr m ρ c 2).trans (Region2.final (V10 m ρ) c)
theorem W11_arg1 (c : Dev nD) : W11 m ρ c (Proc.devRef .tc main_arg1) = (W10 m ρ c (Proc.devRef .tc main_arg1)) := W11_of_ne m ρ c main_arg1 (by decide)
theorem W11_arg2 (c : Dev nD) : W11 m ρ c (Proc.devRef .tc main_arg2) = (W10 m ρ c (Proc.devRef .tc main_arg2)) := W11_of_ne m ρ c main_arg2 (by decide)
theorem W11_arg3 (c : Dev nD) : W11 m ρ c (Proc.devRef .tc main_arg3) = (W10 m ρ c (Proc.devRef .tc main_arg3)) := W11_of_ne m ρ c main_arg3 (by decide)

/-! ## The host operations before the fourth launch -/

set_option maxHeartbeats 2000000 in
theorem W18_v25 (c : Dev nD) : W18 m ρ c (Proc.devRef .tc main_v25) = Host.gather gather_S100000x128_S1605632x1_S1605632x128_1_0_n_n_0_1_1128 (W11 m ρ c (Proc.devRef .tc main_v15)) (colIdx (W11 m ρ c (Proc.devRef .tc main_arg2))) := by
  dsimp only [W18, W17, W16, W15, W14, W13, W12]
  generalize W11 m ρ c = W
  simp only [hostOps3, hostOps3_1, hostOps3_2, hostOps3_3, hostOps3_4, hostOps3_5, hostOps3_6]
  after_results
  first | done | rfl
theorem W18_v17 (c : Dev nD) : W18 m ρ c (Proc.devRef .tc main_v17) = padF (W11 m ρ c (Proc.devRef .tc main_arg3)) := by
  dsimp only [W18, W17, W16, W15, W14, W13, W12]
  generalize W11 m ρ c = W
  simp only [hostOps3, hostOps3_1, hostOps3_2, hostOps3_3, hostOps3_4, hostOps3_5, hostOps3_6]
  after_results
  first | done | rfl
theorem W18_v18 (c : Dev nD) : W18 m ρ c (Proc.devRef .tc main_v18) = padI (W11 m ρ c (Proc.devRef .tc main_arg1)) := by
  dsimp only [W18, W17, W16, W15, W14, W13, W12]
  generalize W11 m ρ c = W
  simp only [hostOps3, hostOps3_1, hostOps3_2, hostOps3_3, hostOps3_4, hostOps3_5, hostOps3_6]
  after_results
  first | done | rfl

/-! ## After the fourth launch, the second scatter-add, and the last launch -/

theorem W19_v26 (c : Dev nD) : W19 m ρ c (Proc.devRef .tc main_v26) = Cert.Spec.scale (W18 m ρ c (Proc.devRef .tc main_v17)) (W18 m ρ c (Proc.devRef .tc main_v25)) :=
  (W19_arr m ρ c 2).trans (Region3.final (V18 m ρ) c)
theorem W19_v18 (c : Dev nD) : W19 m ρ c (Proc.devRef .tc main_v18) = (W18 m ρ c (Proc.devRef .tc main_v18)) := W19_of_ne m ρ c main_v18 (by decide)

theorem W20_v29 (c : Dev nD) : W20 m ρ c (Proc.devRef .tc main_v29) = Host.scatterAdd scatter_S100000x128_S1605632x1_S1605632x128_1_0_0_1 zeros (broadcastInDim S1605632x1 ![0] Facts₀.bcast_S1605632_S1605632x1_0 (W19 m ρ c (Proc.devRef .tc main_v18))) (W19 m ρ c (Proc.devRef .tc main_v26)) := by
  dsimp only [W20]
  generalize W19 m ρ c = W
  simp only [hostOps4]
  after_results
  first | done | rfl

theorem W21_v30_relu (c : Dev nD) : W21 m ρ c (Proc.devRef .tc main_v30) = Cert.Spec.relu (W20 m ρ c (Proc.devRef .tc main_v29)) :=
  (W21_arr m ρ c 1).trans (Region4.final (V20 m ρ) c)

/-! ## Put together -/

/-- The arguments at the boundary before the second launch are as launched. -/
theorem W8_args (c : Dev nD) : (W8 m ρ c (Proc.devRef .tc main_arg1)) = (m ((c : Thread nD τ).loc main_arg1)) ∧ (W8 m ρ c (Proc.devRef .tc main_arg2)) = (m ((c : Thread nD τ).loc main_arg2))
    ∧ (W8 m ρ c (Proc.devRef .tc main_arg3)) = (m ((c : Thread nD τ).loc main_arg3)) ∧ (W8 m ρ c (Proc.devRef .tc main_arg5)) = (m ((c : Thread nD τ).loc main_arg5)) :=
  ⟨(W8_arg1 m ρ c).trans (W1_arg1 m ρ c), (W8_arg2 m ρ c).trans (W1_arg2 m ρ c),
   (W8_arg3 m ρ c).trans (W1_arg3 m ρ c), (W8_arg5 m ρ c).trans (W1_arg5 m ρ c)⟩

/-- The first layer's sparse product, as the kernel's program leaves it before the third launch. -/
theorem first_layer (c : Dev nD) : (W10 m ρ c (Proc.devRef .tc main_v14))
    = spmm (m ((c : Thread nD τ).loc main_arg1)) (m ((c : Thread nD τ).loc main_arg2)) (m ((c : Thread nD τ).loc main_arg3)) (Cert.Spec.mm (m ((c : Thread nD τ).loc main_arg0)) (m ((c : Thread nD τ).loc main_arg4))) := by
  rw [W10_v14, W9_v3, W9_v11, W8_v3, W8_v2, W8_v10, W1_v0, W1_arg1, W1_arg2, W1_arg3]
  rfl

/-- The arguments at the boundary after the third launch are as launched. -/
theorem W11_args (c : Dev nD) : (W11 m ρ c (Proc.devRef .tc main_arg1)) = (m ((c : Thread nD τ).loc main_arg1)) ∧ (W11 m ρ c (Proc.devRef .tc main_arg2)) = (m ((c : Thread nD τ).loc main_arg2))
    ∧ (W11 m ρ c (Proc.devRef .tc main_arg3)) = (m ((c : Thread nD τ).loc main_arg3)) :=
  ⟨(W11_arg1 m ρ c).trans ((W10_arg1 m ρ c).trans ((W9_arg1 m ρ c).trans (W8_args m ρ c).1)),
   (W11_arg2 m ρ c).trans ((W10_arg2 m ρ c).trans ((W9_arg2 m ρ c).trans (W8_args m ρ c).2.1)),
   (W11_arg3 m ρ c).trans ((W10_arg3 m ρ c).trans ((W9_arg3 m ρ c).trans (W8_args m ρ c).2.2.1))⟩

/-- THE KERNEL'S RESULT: the two layers of the arguments as launched. -/
theorem result (c : Dev nD) : W21 m ρ c (Proc.devRef .tc main_v30)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W21_v30_relu, W20_v29, W19_v18, W19_v26, W18_v18, W18_v17, W18_v25, W11_v15, (W11_args m ρ c).1, (W11_args m ρ c).2.1,
    (W11_args m ρ c).2.2, first_layer, W10_arg5, W9_arg5, (W8_args m ρ c).2.2.2]
  rfl

end Cert.KernelIdeal.KValue

end
-- ==== Proof.RefSpec.lean ====
/-
  What the reference computes, as functions of its arguments: the column indices with negatives wrapped by the node
  count; one layer's sparse product — gather the feature row each edge's column index names, scale it by the edge's
  value, add it into the row the edge's row index names, starting from zero —; and the two layers composed: dense
  product, sparse product, positive part (the maximum with the zero array), twice.
-/
import proofs.«135429_j5342939316652_1_alg».proof.ReferenceIdeal
import proofs.«135429_j5342939316652_1_alg».proof.Proof.Gen.ReferenceIdeal
import Idealize.ShloMosaic.PureOps.Ideal

noncomputable section

namespace Cert.ReferenceIdeal.RSpec

open Cert.ReferenceIdeal Cert.ReferenceIdeal.Facts₀ Idealize.ShloMosaic

/-- The column indices, a negative one wrapped by adding the node count, as the `[E, 1]` start indices of the gather. -/
def colIdx (cols : IVec S1600000 32) : IVec S1600000x1 32 :=
  broadcastInDim S1600000x1 ![0] bcast_S1600000_S1600000x1_0
    (select (cmpi .slt cols (broadcastInDim S1600000 ![] bcast_S_S1600000 (constantI S_ 32 0#32)))
      (addi cols (broadcastInDim S1600000 ![] bcast_S_S1600000 (constantI S_ 32 100000#32)))
      cols)

/-- The row indices as the `[E, 1]` indices of the scatter. -/
def rowIdx (rows : IVec S1600000 32) : IVec S1600000x1 32 :=
  broadcastInDim S1600000x1 ![0] bcast_S1600000_S1600000x1_0 rows

/-- The all-zero node array: what the scatter-add starts from, and what the positive part is the maximum with. -/
def zeros : FVec Ideal S100000x128 .f32 :=
  broadcastInDim S100000x128 ![] bcast_S_S100000x128 (constant (F := Ideal) S_ .f32 0x00000000#32)

/-- One layer's sparse product over the edge list. -/
def spmm (rows cols : IVec S1600000 32) (vals : FVec Ideal S1600000 .f32) (h : FVec Ideal S100000x128 .f32) :
    FVec Ideal S100000x128 .f32 :=
  Host.scatterAdd scatter_S100000x128_S1600000x1_S1600000x128_1_0_0_1 zeros (rowIdx rows)
    (mulf (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h (colIdx cols)))

/-- The whole reference: two layers of dense product, sparse product and positive part. -/
def out (x : FVec Ideal S100000x128 .f32) (rows cols : IVec S1600000 32) (vals : FVec Ideal S1600000 .f32)
    (w1 w2 : FVec Ideal S128x128 .f32) : FVec Ideal S100000x128 .f32 :=
  maximumf (spmm rows cols vals (Host.dotGeneral dot_S100000x128_S128x128_S100000x128_1_0_0_1_n_n none
    (maximumf (spmm rows cols vals (Host.dotGeneral dot_S100000x128_S128x128_S100000x128_1_0_0_1_n_n none x w1)) zeros) w2)) zeros

end Cert.ReferenceIdeal.RSpec

end
-- ==== Proof.LibRowScatter.lean ====
/-
  Row gathers and row scatter-adds of a matrix, and what appending zero rows to the updates does to them.
  A row gather reads, for edge `e`, the operand's row named by the `e`-th start index; it looks at no other index, so
  two index lists that agree at `e` gather the same row there. A row scatter-add adds update row `e` into the operand's
  row named by the `e`-th index (dropping it when that row does not exist). Over the extended reals the result is the
  operand plus the sum of the updates that land on each entry, so update rows that are zero change nothing wherever
  they land: a longer update list that agrees with a shorter one on its first rows and is zero beyond computes the
  same array. Stated for every extent.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of a row gather `x[idx]` of an `[N, D]` operand at `E` start indices held as an `[E, 1]` array. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of a row scatter of `E` update rows `[E, D]` into an `[N, D]` operand at indices `[E, 1]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-! ## The row gather, axis by axis -/

/-- Result entry `(e, k)` of a row gather reads its one start-index component at position `(e, 0)` of the index
    list: the batch coordinate `e` on the edge axis, the component number (there is only one) on the vector axis. -/
theorem rowGather_siIdx {N D E : Nat} (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    show c.val = 0
    have : c.val < 1 := c.isLt
    omega

/-- On the row axis the operand index of result entry `(e, k)` is the start index at `(e, 0)`, read signed and
    clamped into `[0, N − 1]`: the axis is collapsed (no offset coordinate) and is not a batching axis. -/
theorem rowGather_operandIdx0 {N D E w : Nat} (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    ((rowGatherDims N D E wf).operandIdx (ix2 e k) idx 0).val
      = min (idx (ix2 e (0 : Fin 1))).toInt.toNat (N - 1) := by
  show (rowGatherDims N D E wf).start (ix2 e k) idx 0 + (rowGatherDims N D E wf).batchCoord (ix2 e k) 0
    + (rowGatherDims N D E wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N D E wf).startIndexMap from List.mem_singleton.mpr rfl)]
  rw [rowGather_siIdx]
  rfl

/-- On the column axis the operand index of result entry `(e, k)` is `k`: the axis is not in the start index map
    (start `0`), is not a batching axis, and is the one offset axis, whose coordinate is the result's column. -/
theorem rowGather_operandIdx1 {N D E w : Nat} (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    ((rowGatherDims N D E wf).operandIdx (ix2 e k) idx 1).val = k.val := by
  show (rowGatherDims N D E wf).start (ix2 e k) idx 1 + (rowGatherDims N D E wf).batchCoord (ix2 e k) 1
    + (rowGatherDims N D E wf).offCoord (ix2 e k) 1 = _
  rw [GatherDims.batchCoord_eq_zero _ _ _ List.not_mem_nil]
  have hs : (rowGatherDims N D E wf).start (ix2 e k) idx 1 = 0 := by
    unfold GatherDims.start
    rw [dif_neg (show (1 : Fin 2) ∉ [(0 : Fin 2)] by decide)]
  rw [hs]
  simp only [Nat.add_zero, Nat.zero_add]
  unfold GatherDims.offCoord
  rw [dif_pos ((GatherDims.mem_sKept _ _).mpr ⟨show (1 : Fin 2) ∉ [(0 : Fin 2)] by decide, List.not_mem_nil⟩)]
  rfl

/-- Two row gathers of one operand, over index lists of lengths `E ≤ E'` that agree at edge `e`, read the same
    operand entry at `(e, k)`. -/
theorem gather_rows_congr {α : Type} {N D E E' w : Nat} (hE : E ≤ E')
    (wf : GatherDims.WF ⟨2, ![N, D]⟩ ⟨2, ![E, 1]⟩ ⟨2, ![E, D]⟩ [1] [0] [] [0] [] 1 ![1, D])
    (wf' : GatherDims.WF ⟨2, ![N, D]⟩ ⟨2, ![E', 1]⟩ ⟨2, ![E', D]⟩ [1] [0] [] [0] [] 1 ![1, D])
    (x : (⟨2, ![N, D]⟩ : Shape).Idx → α) (idx : IVec ⟨2, ![E, 1]⟩ w) (idx' : IVec ⟨2, ![E', 1]⟩ w)
    (e : Fin E) (k : Fin D)
    (hidx : idx' (ix2 (Fin.castLE hE e) (0 : Fin 1)) = idx (ix2 e (0 : Fin 1))) :
    Host.gather (rowGatherDims N D E' wf') x idx' (ix2 (Fin.castLE hE e) k)
      = Host.gather (rowGatherDims N D E wf) x idx (ix2 e k) := by
  -- the two reads are of one operand; their operand indices agree axis by axis
  unfold Host.gather
  congr 1
  funext a
  refine Fin.ext ?_
  match a with
  | ⟨0, _⟩ =>
    exact (rowGather_operandIdx0 wf' idx' _ k).trans (by rw [hidx]; exact (rowGather_operandIdx0 wf idx e k).symm)
  | ⟨1, _⟩ => exact (rowGather_operandIdx1 wf' idx' _ k).trans (rowGather_operandIdx1 wf idx e k).symm

/-! ## The row scatter, axis by axis -/

/-- Update entry `(e, k)` of a row scatter reads its one scatter-index component at position `(e, 0)` of the index
    list. -/
theorem rowScatter_siIdx {N D E : Nat} (wf : ScatterDims.WF ⟨2, ![N, D]⟩ ⟨2, ![E, 1]⟩ ⟨2, ![E, D]⟩ [1] [0] [0] 1)
    (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    show c.val = 0
    have : c.val < 1 := c.isLt
    omega

/-- On the row axis the window of update entry `(e, k)` starts at the scatter index at `(e, 0)`, read signed. -/
theorem rowScatter_start0 {N D E w : Nat} (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [rowScatter_siIdx]

/-- On the column axis, which the index map does not name, the window starts at `0`. -/
theorem rowScatter_start1 {N D E w : Nat} (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N D E wf).start (ix2 e k) idx 1 = 0 := by
  unfold ScatterDims.start
  rw [dif_neg (show (1 : Fin 2) ∉ [(0 : Fin 2)] by decide)]

/-- The row axis is an inserted window axis: its window coordinate is `0`. -/
theorem rowScatter_window0 {N D E : Nat} (wf : ScatterDims.WF ⟨2, ![N, D]⟩ ⟨2, ![E, 1]⟩ ⟨2, ![E, D]⟩ [1] [0] [0] 1) (e : Fin E) (k : Fin D) :
    (rowScatterDims N D E wf).window (ix2 e k) 0 = 0 := by
  unfold ScatterDims.window
  have h : (0 : Fin 2) ∉ (rowScatterDims N D E wf).sKept := by
    show (0 : Fin 2) ∉ (List.finRange 2).filter (· ∉ [(0 : Fin 2)])
    decide
  rw [dif_neg h]

/-- The column axis is the one kept axis: its window coordinate is the update's column `k`. -/
theorem rowScatter_window1 {N D E : Nat} (wf : ScatterDims.WF ⟨2, ![N, D]⟩ ⟨2, ![E, 1]⟩ ⟨2, ![E, D]⟩ [1] [0] [0] 1) (e : Fin E) (k : Fin D) :
    (rowScatterDims N D E wf).window (ix2 e k) 1 = k.val := by
  unfold ScatterDims.window
  have h : (1 : Fin 2) ∈ (rowScatterDims N D E wf).sKept := by
    show (1 : Fin 2) ∈ (List.finRange 2).filter (· ∉ [(0 : Fin 2)])
    decide
  rw [dif_pos h]
  rfl

/-- Where an update lands depends only on its window's start and window coordinate on each operand axis: two
    scatters into one operand shape (their index and update shapes may differ) whose starts and window coordinates
    agree on every axis land at the same place, or both nowhere. -/
theorem resultIdx?_congr {s si si' u u' : Shape} {w : Nat} (d : ScatterDims s si u) (d' : ScatterDims s si' u')
    (j : u.Idx) (j' : u'.Idx) (idx : IVec si w) (idx' : IVec si' w)
    (hs : ∀ a, d'.start j' idx' a = d.start j idx a) (hw : ∀ a, d'.window j' a = d.window j a) :
    d'.resultIdx? j' idx' = d.resultIdx? j idx := by
  unfold ScatterDims.resultIdx?
  simp only [hs, hw]

/-! ## Short update indices inside long ones -/

/-- Every rank-2 index is `ix2` of its coordinates, the coordinates written with bounds in the extents themselves. -/
theorem eq_ix2_val {n0 n1 : Nat} (j : (⟨2, ![n0, n1]⟩ : Shape).Idx) :
    j = ix2 (⟨(j 0).val, idx2_lt0 j⟩ : Fin n0) (⟨(j 1).val, idx2_lt1 j⟩ : Fin n1) := eq_ix2 j

/-- The embedding `(e, k) ↦ (e, k)` of the update indices of `E` rows into those of `E' ≥ E` rows. -/
def padIdx {D E E' : Nat} (hE : E ≤ E') (j : (⟨2, ![E, D]⟩ : Shape).Idx) : (⟨2, ![E', D]⟩ : Shape).Idx :=
  ix2 (Fin.castLE hE ⟨(j 0).val, idx2_lt0 j⟩) (⟨(j 1).val, idx2_lt1 j⟩ : Fin D)

/-- It is injective: it keeps both coordinates. -/
theorem padIdx_injective {D E E' : Nat} (hE : E ≤ E') : Function.Injective (padIdx (D := D) hE) := by
  intro j1 j2 h
  have h0 := congrArg (fun f => (f 0).val) h
  have h1 := congrArg (fun f => (f 1).val) h
  funext a
  refine Fin.ext ?_
  match a with
  | ⟨0, _⟩ => exact h0
  | ⟨1, _⟩ => exact h1

/-- Update entry `(e, k)` lands at the same place in the long scatter as in the short one when the index lists
    agree at edge `e`: the start on the row axis is the common index, the column axis carries `k`. -/
theorem rowScatter_resultIdx?_pad {N D E E' w : Nat} (hE : E ≤ E')
    (wf : ScatterDims.WF ⟨2, ![N, D]⟩ ⟨2, ![E, 1]⟩ ⟨2, ![E, D]⟩ [1] [0] [0] 1)
    (wf' : ScatterDims.WF ⟨2, ![N, D]⟩ ⟨2, ![E', 1]⟩ ⟨2, ![E', D]⟩ [1] [0] [0] 1)
    (idx : IVec ⟨2, ![E, 1]⟩ w) (idx' : IVec ⟨2, ![E', 1]⟩ w)
    (hidx : ∀ e : Fin E, idx' (ix2 (Fin.castLE hE e) (0 : Fin 1)) = idx (ix2 e (0 : Fin 1)))
    (e : Fin E) (k : Fin D) :
    (rowScatterDims N D E' wf').resultIdx? (ix2 (Fin.castLE hE e) k) idx'
      = (rowScatterDims N D E wf).resultIdx? (ix2 e k) idx := by
  apply resultIdx?_congr
  · intro a
    match a with
    | ⟨0, _⟩ => exact (rowScatter_start0 wf' idx' _ k).trans (by rw [hidx]; exact (rowScatter_start0 wf idx e k).symm)
    | ⟨1, _⟩ => exact (rowScatter_start1 wf' idx' _ k).trans (rowScatter_start1 wf idx e k).symm
  · intro a
    match a with
    | ⟨0, _⟩ => exact (rowScatter_window0 wf' _ k).trans (rowScatter_window0 wf e k).symm
    | ⟨1, _⟩ => exact (rowScatter_window1 wf' _ k).trans (rowScatter_window1 wf e k).symm

/-- The same, said of a short update index and its image under the embedding. -/
theorem rowScatter_resultIdx?_padIdx {N D E E' w : Nat} (hE : E ≤ E')
    (wf : ScatterDims.WF ⟨2, ![N, D]⟩ ⟨2, ![E, 1]⟩ ⟨2, ![E, D]⟩ [1] [0] [0] 1)
    (wf' : ScatterDims.WF ⟨2, ![N, D]⟩ ⟨2, ![E', 1]⟩ ⟨2, ![E', D]⟩ [1] [0] [0] 1)
    (idx : IVec ⟨2, ![E, 1]⟩ w) (idx' : IVec ⟨2, ![E', 1]⟩ w)
    (hidx : ∀ e : Fin E, idx' (ix2 (Fin.castLE hE e) (0 : Fin 1)) = idx (ix2 e (0 : Fin 1)))
    (j : (⟨2, ![E, D]⟩ : Shape).Idx) :
    (rowScatterDims N D E' wf').resultIdx? (padIdx hE j) idx' = (rowScatterDims N D E wf).resultIdx? j idx :=
  (rowScatter_resultIdx?_pad hE wf wf' idx idx' hidx _ _).trans
    (congrArg (fun j => (rowScatterDims N D E wf).resultIdx? j idx) (eq_ix2_val j).symm)

/-- Appending zero update rows does not change a row scatter-add over the extended reals: if the longer index list
    and update array agree with the shorter ones on the first `E` edges and the updates are zero from edge `E` on,
    the two results are the same array. -/
theorem scatterAdd_rows_pad {N D E E' w : Nat} {φ : FTy} (hE : E ≤ E')
    (wf : ScatterDims.WF ⟨2, ![N, D]⟩ ⟨2, ![E, 1]⟩ ⟨2, ![E, D]⟩ [1] [0] [0] 1)
    (wf' : ScatterDims.WF ⟨2, ![N, D]⟩ ⟨2, ![E', 1]⟩ ⟨2, ![E', D]⟩ [1] [0] [0] 1)
    (x : FVec Ideal ⟨2, ![N, D]⟩ φ) (idx : IVec ⟨2, ![E, 1]⟩ w) (idx' : IVec ⟨2, ![E', 1]⟩ w)
    (upd : FVec Ideal ⟨2, ![E, D]⟩ φ) (upd' : FVec Ideal ⟨2, ![E', D]⟩ φ)
    (hidx : ∀ e : Fin E, idx' (ix2 (Fin.castLE hE e) (0 : Fin 1)) = idx (ix2 e (0 : Fin 1)))
    (hupd : ∀ (e : Fin E) (k : Fin D), upd' (ix2 (Fin.castLE hE e) k) = upd (ix2 e k))
    (hzero : ∀ (e : Fin E') (k : Fin D), E ≤ e.val → upd' (ix2 e k) = 0) :
    Host.scatterAdd (F := Ideal) (rowScatterDims N D E' wf') x idx' upd'
      = Host.scatterAdd (F := Ideal) (rowScatterDims N D E wf) x idx upd := by
  -- both sides are the operand plus, at each entry, the sum of the updates landing there
  unfold Host.scatterAdd
  rw [Ideal.hostScatterAdd_def, Ideal.hostScatterAdd_def]
  unfold Ideal.hostScatterAdd
  funext i
  congr 1
  symm
  have key := rowScatter_resultIdx?_padIdx hE wf wf' idx idx' hidx
  -- the short sum is carried into the long one by the embedding; what the long sum has beyond its image is zero
  apply Finset.sum_of_injOn (padIdx hE)
  · exact (padIdx_injective hE).injOn
  · -- a short update landing at `i` still lands at `i` as a long update
    intro j hj
    simp only [Finset.coe_filter, Finset.mem_univ, true_and, Set.mem_setOf_eq] at hj ⊢
    rw [key]; exact hj
  · -- a long update landing at `i` outside the image has row `≥ E`, so it is zero
    intro j' hj' hni
    simp only [Finset.mem_filter, Finset.mem_univ, true_and] at hj'
    by_cases hlt : (j' 0).val < E
    · exfalso
      apply hni
      have hpre : padIdx hE (ix2 (⟨(j' 0).val, hlt⟩ : Fin E) (⟨(j' 1).val, idx2_lt1 j'⟩ : Fin D)) = j' := by
        funext a
        refine Fin.ext ?_
        match a with
        | ⟨0, _⟩ => rfl
        | ⟨1, _⟩ => rfl
      refine ⟨ix2 (⟨(j' 0).val, hlt⟩ : Fin E) (⟨(j' 1).val, idx2_lt1 j'⟩ : Fin D), ?_, hpre⟩
      simp only [Finset.coe_filter, Finset.mem_univ, true_and, Set.mem_setOf_eq]
      rw [← key, hpre]; exact hj'
    · rw [eq_ix2_val j']
      exact hzero _ _ (Nat.le_of_not_lt hlt)
  · -- the embedded update has the short update's value
    intro j _
    exact (congrArg upd (eq_ix2_val j)).trans (hupd _ _).symm

end Cert.LibRowScatter

end
-- ==== Proof.Bridge.lean ====
/-
  Why the kernel's layer and the reference's layer are the same function. Three facts over the extended reals.
  The host's dense product is the sum over the shared coordinate. The maximum with the zero array is the positive
  part. And one layer's sparse product does not see the kernel's padding: the kernel appends 5632 edges with column
  index 0, row index 0 and value 0; on the first 1600000 edges the padded index arrays read what the unpadded ones read,
  so the gathered row and its destination are the same and the scaled row is the same up to the order of the two
  factors; on the appended edges the scaled row is a row times zero, which is zero whatever the row is, and a zero
  row added anywhere changes nothing.
-/
import proofs.«135429_j5342939316652_1_alg».proof.Proof.KernelSpec
import proofs.«135429_j5342939316652_1_alg».proof.Proof.RefSpec
import proofs.«135429_j5342939316652_1_alg».proof.Proof.LibRowScatter
import proofs.«135429_j5342939316652_1_alg».proof.Proof.Gen.ReferenceIdeal.Read
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.LibRowScatter

/-! ## Small reads at an index -/

/-- A vector laid out as an `[n, 1]` column reads, in row `p`, its entry `p`. -/
theorem column_apply {α : Type} {n : Nat} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) :=
  broadcastInDim_apply _ h v (ix2 p u) (ix1 p) (fun a => by
    have ha : a = 0 := Subsingleton.elim _ _
    subst ha
    show p.val = if n = 1 then 0 else p.val
    split
    · have := p.isLt; omega
    · rfl)

/-- An `[n, 1]` column repeated along `d` columns reads, at `(p, q)`, the column's row `p`. -/
theorem repeat_apply {α : Type} {n d : Nat} (h : (⟨2, ![n, 1]⟩ : Shape).BroadcastsInDim ⟨2, ![n, d]⟩ ![0, 1])
    (v : (⟨2, ![n, 1]⟩ : Shape).Idx → α) (p : Fin n) (q : Fin d) :
    broadcastInDim ⟨2, ![n, d]⟩ ![0, 1] h v (ix2 p q) = v (ix2 p (0 : Fin 1)) :=
  broadcastInDim_apply _ h v (ix2 p q) (ix2 p (0 : Fin 1)) (fun a => by
    match a with
    | ⟨0, _⟩ =>
      show p.val = if n = 1 then 0 else p.val
      split
      · have := p.isLt; omega
      · rfl
    | ⟨1, _⟩ => rfl)

/-- A scalar spread over a vector reads the scalar everywhere. -/
theorem splat_apply {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 (fun a => a.elim0)

/-! ## The zero array, the positive part, the dense product -/

theorem zeros_apply (i : Cert.ReferenceIdeal.S100000x128.Idx) : Cert.ReferenceIdeal.RSpec.zeros i = 0 := by
  unfold Cert.ReferenceIdeal.RSpec.zeros
  rw [splat_apply]
  exact Ideal.ofBits_zero_f32

/-- The two programs start their scatter-adds from the same all-zero array. -/
theorem zeros_eq : Cert.KernelIdeal.KSpec.zeros = Cert.ReferenceIdeal.RSpec.zeros := rfl

/-- The maximum with the zero array is the positive part. -/
theorem relu_eq (x : FVec Ideal Cert.ReferenceIdeal.S100000x128 .f32) : maximumf x Cert.ReferenceIdeal.RSpec.zeros = Cert.Spec.relu x :=
  funext fun i => by
    show max (x i) (Cert.ReferenceIdeal.RSpec.zeros i) = max (x i) 0
    rw [zeros_apply]

/-- The host's dense product is the sum over the shared coordinate. -/
theorem dot_eq (a : FVec Ideal Cert.ReferenceIdeal.S100000x128 .f32) (w : FVec Ideal Cert.ReferenceIdeal.S128x128 .f32) :
    Host.dotGeneral (F := Ideal) Cert.ReferenceIdeal.dot_S100000x128_S128x128_S100000x128_1_0_0_1_n_n none a w = Cert.Spec.mm a w :=
  funext fun i => by
    have h := Cert.ReferenceIdeal.Read.val_main_v0_apply a w i
    unfold Cert.ReferenceIdeal.Read.val_main_v0 at h
    rw [h]
    unfold Cert.Spec.mm
    refine Finset.sum_congr rfl fun k _ => ?_
    have el : Cert.ReferenceIdeal.Read.lidx_main_v0 i k = ix2 ⟨(i 0).val, idx2_lt0 i⟩ k :=
      funext fun b => by match b with | ⟨0, _⟩ => rfl | ⟨1, _⟩ => rfl
    have er : Cert.ReferenceIdeal.Read.ridx_main_v0 i k = ix2 k ⟨(i 1).val, idx2_lt1 i⟩ :=
      funext fun b => by match b with | ⟨0, _⟩ => rfl | ⟨1, _⟩ => rfl
    rw [el, er]

/-! ## The padded arrays read at an edge -/

theorem edges_le : 1600000 ≤ 1605632 := by decide

/-- A padded index array reads, at one of the first 1600000 edges, the unpadded array there. -/
theorem padI_inside (x : IVec Cert.KernelIdeal.S1600000 32) (e : Fin 1600000) :
    Cert.KernelIdeal.KSpec.padI x (ix1 (Fin.castLE edges_le e)) = x (ix1 e) := by
  unfold Cert.KernelIdeal.KSpec.padI
  exact pad_apply_of_inside _ _ _ x _ _ _ _ (ix1 e) (fun a => by
    have ha : a = 0 := Subsingleton.elim _ _
    subst ha
    show e.val = 0 + e.val * (0 + 1)
    omega)

/-- The padded edge values read, at one of the first 1600000 edges, the unpadded values there. -/
theorem padF_inside (x : FVec Ideal Cert.KernelIdeal.S1600000 .f32) (e : Fin 1600000) :
    Cert.KernelIdeal.KSpec.padF x (ix1 (Fin.castLE edges_le e)) = x (ix1 e) := by
  unfold Cert.KernelIdeal.KSpec.padF
  exact pad_apply_of_inside _ _ _ x _ _ _ _ (ix1 e) (fun a => by
    have ha : a = 0 := Subsingleton.elim _ _
    subst ha
    show e.val = 0 + e.val * (0 + 1)
    omega)

/-- The padded edge values are zero from edge 1600000 on. -/
theorem padF_outside (x : FVec Ideal Cert.KernelIdeal.S1600000 .f32) (e : Fin 1605632) (he : 1600000 ≤ e.val) :
    Cert.KernelIdeal.KSpec.padF x (ix1 e) = 0 := by
  unfold Cert.KernelIdeal.KSpec.padF
  rw [pad_apply_of_not_inside _ _ _ x _ _ _ (ix1 e) 0 (by
    show ¬(0 ≤ e.val ∧ (e.val - 0) % (0 + 1) = 0 ∧ (e.val - 0) / (0 + 1) < 1600000)
    omega)]
  exact Ideal.ofBits_zero_f32

/-- The kernel's row indices read, at one of the first 1600000 edges, what the reference's read. -/
theorem rowIdx_agree (rows : IVec Cert.ReferenceIdeal.S1600000 32) (e : Fin 1600000) :
    Cert.KernelIdeal.KSpec.rowIdx rows (ix2 (Fin.castLE edges_le e) (0 : Fin 1)) = Cert.ReferenceIdeal.RSpec.rowIdx rows (ix2 e (0 : Fin 1)) := by
  unfold Cert.KernelIdeal.KSpec.rowIdx Cert.ReferenceIdeal.RSpec.rowIdx
  rw [column_apply, column_apply, padI_inside]

/-- The kernel's wrapped column indices read, at one of the first 1600000 edges, what the reference's read: the
    wrapping looks at one entry, and the padded array's entry is the unpadded one's. -/
theorem colIdx_agree (cols : IVec Cert.ReferenceIdeal.S1600000 32) (e : Fin 1600000) :
    Cert.KernelIdeal.KSpec.colIdx cols (ix2 (Fin.castLE edges_le e) (0 : Fin 1)) = Cert.ReferenceIdeal.RSpec.colIdx cols (ix2 e (0 : Fin 1)) := by
  unfold Cert.KernelIdeal.KSpec.colIdx Cert.ReferenceIdeal.RSpec.colIdx
  rw [column_apply, column_apply]
  show Scalar.select (IntOp.cmpi .slt (Cert.KernelIdeal.KSpec.padI cols (ix1 (Fin.castLE edges_le e))) (broadcastInDim Cert.KernelIdeal.S1605632 ![] _ (constantI Cert.KernelIdeal.S_ 32 0#32) (ix1 (Fin.castLE edges_le e))))
      (IntOp.addi (Cert.KernelIdeal.KSpec.padI cols (ix1 (Fin.castLE edges_le e))) (broadcastInDim Cert.KernelIdeal.S1605632 ![] _ (constantI Cert.KernelIdeal.S_ 32 100000#32) (ix1 (Fin.castLE edges_le e))))
      (Cert.KernelIdeal.KSpec.padI cols (ix1 (Fin.castLE edges_le e)))
    = Scalar.select (IntOp.cmpi .slt (cols (ix1 e)) (broadcastInDim Cert.ReferenceIdeal.S1600000 ![] _ (constantI Cert.ReferenceIdeal.S_ 32 0#32) (ix1 e)))
      (IntOp.addi (cols (ix1 e)) (broadcastInDim Cert.ReferenceIdeal.S1600000 ![] _ (constantI Cert.ReferenceIdeal.S_ 32 100000#32) (ix1 e)))
      (cols (ix1 e))
  rw [padI_inside, splat_apply, splat_apply, splat_apply, splat_apply]

/-! ## One layer -/

/-- The scaled rows read at edge `p`, feature `q`: the gathered entry times the edge's value. -/
theorem scale_apply (v : FVec Ideal Cert.Spec.SEdgesP .f32) (g : FVec Ideal Cert.Spec.SRowsP .f32) (p : Fin 1605632) (q : Fin 128) :
    Cert.Spec.scale v g (ix2 p q) = g (ix2 p q) * v (ix1 p) := rfl

/-- The reference's scaled rows read at edge `e`, feature `k`: the edge's value times the gathered entry. -/
theorem refScaled_apply (vals : FVec Ideal Cert.ReferenceIdeal.S1600000 .f32) (g : FVec Ideal Cert.ReferenceIdeal.S1600000x128 .f32) (e : Fin 1600000) (k : Fin 128) :
    mulf (broadcastInDim Cert.ReferenceIdeal.S1600000x128 ![0, 1] Cert.ReferenceIdeal.Facts₀.bcast_S1600000x1_S1600000x128_0_1
        (broadcastInDim Cert.ReferenceIdeal.S1600000x1 ![0] Cert.ReferenceIdeal.Facts₀.bcast_S1600000_S1600000x1_0 vals)) g (ix2 e k)
      = vals (ix1 e) * g (ix2 e k) := by
  rw [mulf_apply, repeat_apply, column_apply]

/-- The two gathers read the same feature entry at a real edge. -/
theorem gathered_agree (cols : IVec Cert.ReferenceIdeal.S1600000 32) (h : FVec Ideal Cert.ReferenceIdeal.S100000x128 .f32) (e : Fin 1600000) (k : Fin 128) :
    Host.gather Cert.KernelIdeal.gather_S100000x128_S1605632x1_S1605632x128_1_0_n_n_0_1_1128 h (Cert.KernelIdeal.KSpec.colIdx cols) (ix2 (Fin.castLE edges_le e) k)
      = Host.gather Cert.ReferenceIdeal.gather_S100000x128_S1600000x1_S1600000x128_1_0_n_n_0_1_1128 h (Cert.ReferenceIdeal.RSpec.colIdx cols) (ix2 e k) :=
  gather_rows_congr (N := 100000) (D := 128) edges_le
    Cert.ReferenceIdeal.Facts₀.gather_S100000x128_S1600000x1_S1600000x128_1_0_n_n_0_1_1128_wf
    Cert.KernelIdeal.Facts₀.gather_S100000x128_S1605632x1_S1605632x128_1_0_n_n_0_1_1128_wf
    h (Cert.ReferenceIdeal.RSpec.colIdx cols) (Cert.KernelIdeal.KSpec.colIdx cols) e k (colIdx_agree cols e)

/-- A real edge: the same gathered row, the same value, the factors in the other order. -/
theorem scaled_agree (cols : IVec Cert.ReferenceIdeal.S1600000 32) (vals : FVec Ideal Cert.ReferenceIdeal.S1600000 .f32) (h : FVec Ideal Cert.ReferenceIdeal.S100000x128 .f32)
    (e : Fin 1600000) (k : Fin 128) :
    Cert.Spec.scale (Cert.KernelIdeal.KSpec.padF vals) (Host.gather Cert.KernelIdeal.gather_S100000x128_S1605632x1_S1605632x128_1_0_n_n_0_1_1128 h (Cert.KernelIdeal.KSpec.colIdx cols)) (ix2 (Fin.castLE edges_le e) k)
      = mulf (broadcastInDim Cert.ReferenceIdeal.S1600000x128 ![0, 1] Cert.ReferenceIdeal.Facts₀.bcast_S1600000x1_S1600000x128_0_1
          (broadcastInDim Cert.ReferenceIdeal.S1600000x1 ![0] Cert.ReferenceIdeal.Facts₀.bcast_S1600000_S1600000x1_0 vals))
        (Host.gather Cert.ReferenceIdeal.gather_S100000x128_S1600000x1_S1600000x128_1_0_n_n_0_1_1128 h (Cert.ReferenceIdeal.RSpec.colIdx cols)) (ix2 e k) := by
  rw [scale_apply, refScaled_apply, padF_inside, gathered_agree, mul_comm]

/-- An appended edge: a row times zero. -/
theorem scaled_zero (cols : IVec Cert.ReferenceIdeal.S1600000 32) (vals : FVec Ideal Cert.ReferenceIdeal.S1600000 .f32) (h : FVec Ideal Cert.ReferenceIdeal.S100000x128 .f32)
    (e : Fin 1605632) (k : Fin 128) (he : 1600000 ≤ e.val) :
    Cert.Spec.scale (Cert.KernelIdeal.KSpec.padF vals) (Host.gather Cert.KernelIdeal.gather_S100000x128_S1605632x1_S1605632x128_1_0_n_n_0_1_1128 h (Cert.KernelIdeal.KSpec.colIdx cols)) (ix2 e k) = 0 := by
  rw [scale_apply, padF_outside vals e he, mul_zero]

/-- The printed dimension records of the two scatters and the two gathers are the row forms. -/
theorem scatterK_eq : Cert.KernelIdeal.scatter_S100000x128_S1605632x1_S1605632x128_1_0_0_1
    = rowScatterDims 100000 128 1605632 Cert.KernelIdeal.Facts₀.scatter_S100000x128_S1605632x1_S1605632x128_1_0_0_1_wf := rfl
theorem scatterR_eq : Cert.ReferenceIdeal.scatter_S100000x128_S1600000x1_S1600000x128_1_0_0_1
    = rowScatterDims 100000 128 1600000 Cert.ReferenceIdeal.Facts₀.scatter_S100000x128_S1600000x1_S1600000x128_1_0_0_1_wf := rfl

/-- ONE LAYER'S SPARSE PRODUCT IS THE SAME with and without the kernel's padding. -/
theorem spmm_eq (rows cols : IVec Cert.ReferenceIdeal.S1600000 32) (vals : FVec Ideal Cert.ReferenceIdeal.S1600000 .f32)
    (h : FVec Ideal Cert.ReferenceIdeal.S100000x128 .f32) :
    Cert.KernelIdeal.KSpec.spmm rows cols vals h = Cert.ReferenceIdeal.RSpec.spmm rows cols vals h := by
  unfold Cert.KernelIdeal.KSpec.spmm Cert.ReferenceIdeal.RSpec.spmm
  rw [zeros_eq, scatterK_eq, scatterR_eq]
  apply scatterAdd_rows_pad edges_le
  · exact fun e => rowIdx_agree rows e
  · exact fun e k => scaled_agree cols vals h e k
  · exact fun e k he => scaled_zero cols vals h e k he

end Cert.Bridge

end
-- ==== Proof.lean ====
/-
  A two-layer graph convolution, kernel against reference, equal over the extended reals.

  Both programs compute, twice over: multiply the node features by a weight matrix, gather for every edge the feature
  row its column index names, scale that row by the edge's value, add it into the row the edge's row index names
  (starting from the zero array), and take the positive part. The reference does this with whole-array operations.
  The kernel does the dense products, the per-edge scaling and the last positive part in five launches over blocks of
  rows, fuses the first positive part into the second product's input, and pads the edge list from 1600000 to 1605632
  edges (196 whole blocks of 8192) with column index 0, row index 0 and value 0.

  Three things make the two equal. Each launch's blocks are restrictions of one whole-array function and tile their
  array, so each launch leaves the dense product, the scaled rows, or the positive part of what it read; a product
  computed on narrowed operands is the same product here, where a change of float format is the identity, and a
  block-by-block product into a zero accumulator is the host's product, both being the sum over the shared coordinate.
  The order of the two factors in the scaling does not matter. And the padding does not matter: an appended edge
  contributes a feature row times zero, which is zero whatever the row holds, and adding zero rows into row 0 changes
  nothing, because the scatter-add over the extended reals is the operand plus the sum of the updates landing on each
  entry; on the real edges the padded index arrays read what the unpadded ones read. No law used needs the inputs
  finite, so the precondition is never opened.
-/
import proofs.«135429_j5342939316652_1_alg».proof.Defs
import proofs.«135429_j5342939316652_1_alg».proof.Proof.Gen.Kernel
import proofs.«135429_j5342939316652_1_alg».proof.Proof.Gen.Kernel.Skeleton
import proofs.«135429_j5342939316652_1_alg».proof.Proof.Gen.Kernel.Launch
import proofs.«135429_j5342939316652_1_alg».proof.Proof.Gen.Kernel.Points
import proofs.«135429_j5342939316652_1_alg».proof.Proof.Gen.Kernel.Frame
import proofs.«135429_j5342939316652_1_alg».proof.Proof.Gen.KernelIdeal
import proofs.«135429_j5342939316652_1_alg».proof.Proof.Gen.KernelIdeal.Skeleton
import proofs.«135429_j5342939316652_1_alg».proof.Proof.Gen.KernelIdeal.Launch
import proofs.«135429_j5342939316652_1_alg».proof.Proof.Gen.KernelIdeal.Points
import proofs.«135429_j5342939316652_1_alg».proof.Proof.Gen.KernelIdeal.Frame
import proofs.«135429_j5342939316652_1_alg».proof.Proof.Gen.ReferenceIdeal
import proofs.«135429_j5342939316652_1_alg».proof.Proof.Gen.Pre_finite_inputs
import proofs.«135429_j5342939316652_1_alg».proof.Proof.Gen.ReferenceIdeal.Run
import proofs.«135429_j5342939316652_1_alg».proof.Proof.Gen.ReferenceIdeal.Read
import proofs.«135429_j5342939316652_1_alg».proof.Proof.KernelRun
import proofs.«135429_j5342939316652_1_alg».proof.Proof.KernelValue
import proofs.«135429_j5342939316652_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs are one function of their arguments: the dense products agree, the positive parts agree, and
    each layer's sparse product does not see the padding. -/
theorem out_eq (x : FVec Ideal Cert.ReferenceIdeal.S100000x128 .f32) (rows cols : IVec Cert.ReferenceIdeal.S1600000 32)
    (vals : FVec Ideal Cert.ReferenceIdeal.S1600000 .f32) (w1 w2 : FVec Ideal Cert.ReferenceIdeal.S128x128 .f32) :
    Cert.ReferenceIdeal.RSpec.out x rows cols vals w1 w2 = Cert.KernelIdeal.KSpec.out x rows cols vals w1 w2 := by
  unfold Cert.ReferenceIdeal.RSpec.out Cert.KernelIdeal.KSpec.out
  rw [Cert.Bridge.relu_eq, Cert.Bridge.relu_eq, Cert.Bridge.dot_eq, Cert.Bridge.dot_eq, Cert.Bridge.spmm_eq, Cert.Bridge.spmm_eq]

/-- From memories agreeing on the arguments both programs end with the same result array: the kernel's run names its
    result as the two layers of its arguments, the reference's run as its own two layers, and the two are one function. -/
theorem algebraic : Cert.algebraic_KernelIdeal_ReferenceIdeal := by
  intro m ρ m' ρ' _ hagree
  refine ⟨fun c => Cert.KernelIdeal.KSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact out_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
